-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2704x5 : Shape := ⟨3, ![2048, 2704, 5]⟩
abbrev S_ : Shape := ⟨0, ![]⟩

class Facts : Prop where
  bcast_S_S2048x2704x5 : S_.BroadcastsInDim S2048x2704x5 (![] : Fin 0 → Fin S2048x2704x5.rank)
  reducesTo_S2048x2704x5_S_d0_1_2 : S2048x2704x5.ReducesTo [0, 1, 2] S_
  h_S_ : 0 < S_.numel

variable [Facts]

def fn {F : FTy → Type} [FloatOps F] (main_arg0 : FVec F S2048x2704x5 .f32) (main_arg1 : FVec F S2048x2704x5 .f32) : IVec S_ 1 :=
  let main_v0 : FVec F S2048x2704x5 .f32 := Host.absf main_arg0
  let main_cst : FVec F S_ .f32 := constant S_ .f32 0x7F800000#32
  let main_v1 : FVec F S2048x2704x5 .f32 := broadcastInDim S2048x2704x5 ![] bcast_S_S2048x2704x5 main_cst
  let main_v2 : IVec S2048x2704x5 1 := cmpf .olt main_v0 main_v1
  let main_c : IVec S_ 1 := constantI S_ 1 1#1
  let main_v3 : IVec S_ 1 := (fun x v => Host.reduce IntOp.andi x v reducesTo_S2048x2704x5_S_d0_1_2 h_S_) main_v2 main_c
  let main_v4 : FVec F S2048x2704x5 .f32 := Host.absf main_arg1
  let main_cst_0 : FVec F S_ .f32 := constant S_ .f32 0x7F800000#32
  let main_v5 : FVec F S2048x2704x5 .f32 := broadcastInDim S2048x2704x5 ![] bcast_S_S2048x2704x5 main_cst_0
  let main_v6 : IVec S2048x2704x5 1 := cmpf .olt main_v4 main_v5
  let main_c_1 : IVec S_ 1 := constantI S_ 1 1#1
  let main_v7 : IVec S_ 1 := (fun x v => Host.reduce IntOp.andi x v reducesTo_S2048x2704x5_S_d0_1_2 h_S_) main_v6 main_c_1
  let main_v8 : IVec S_ 1 := andi main_v3 main_v7
  main_v8
-- ==== Kernel.lean ====
abbrev S2048x2704x5 : Shape := ⟨3, ![2048, 2704, 5]⟩
abbrev S2x1x4 : Shape := ⟨3, ![2, 1, 4]⟩
abbrev S1024x16x5 : Shape := ⟨3, ![1024, 16, 5]⟩
abbrev S1x1x4 : Shape := ⟨3, ![1, 1, 4]⟩
abbrev S1x1 : Shape := ⟨2, ![1, 1]⟩
abbrev S1024x16x1 : Shape := ⟨3, ![1024, 16, 1]⟩
abbrev S1024x16 : Shape := ⟨2, ![1024, 16]⟩
abbrev S1024 : Shape := ⟨1, ![1024]⟩
abbrev S1024x1 : Shape := ⟨2, ![1024, 1]⟩
abbrev S1 : Shape := ⟨1, ![1]⟩
abbrev S1x1x1 : Shape := ⟨3, ![1, 1, 1]⟩
abbrev S_ : Shape := ⟨0, ![]⟩
abbrev S4 : Shape := ⟨1, ![4]⟩

abbrev nBuf : Space → Nat
  | .hbm => 30
  | .vmem => 10
  | .smem => 0
  | _ => 0

abbrev bufTy : (tb : Table) → Fin (tcTables nBuf tb) → BufTy
  | .hbm, ⟨0, _⟩ => ⟨S2048x2704x5, .f32⟩
  | .hbm, ⟨1, _⟩ => ⟨S2048x2704x5, .f32⟩
  | .hbm, ⟨2, _⟩ => ⟨S2x1x4, .f32⟩
  | .hbm, ⟨3, _⟩ => ⟨S_, .f32⟩
  | .hbm, ⟨4, _⟩ => ⟨S4, .f32⟩
  | .hbm, ⟨5, _⟩ => ⟨S1, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1024x16x5, .f32⟩
  | .local _ .vmem, ⟨1, _⟩ => ⟨S1024x16x5, .f32⟩
  | .local _ .vmem, ⟨2, _⟩ => ⟨S1024x16x5, .f32⟩
  | .local _ .vmem, ⟨3, _⟩ => ⟨S1024x16x5, .f32⟩
  | .local _ .vmem, ⟨4, _⟩ => ⟨S1x1x4, .f32⟩
  | .local _ .vmem, ⟨5, _⟩ => ⟨S1x1x4, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | _, _ => ⟨S2048x2704x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 169], ![false, false]⟩

def k0_cond2 (i : grid0.Coords) : BitVec 1 :=
  let arg1 : BitVec 32 := BitVec.ofNat 32 (i 1).val
  let c168_i32 : BitVec 32 := 168#32
  let v98 : BitVec 1 := Scalar.cmpi .eq arg1 c168_i32
  let v99 : BitVec 32 := Scalar.extui v98
  let c0_i32_58 : BitVec 32 := 0#32
  let v100 : BitVec 1 := Scalar.cmpi .ne v99 c0_i32_58
  v100

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x16x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x16x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x16x5_S1024x16x1_0_0_0 : ∀ a, (![0, 0, 0] : Fin 3 → Nat) a + S1024x16x1.size a ≤ S1024x16x5.size a
  h_S1024x16x1 : 0 < S1024x16x1.numel
  shapeCasts_S1024x16x1_S1024x16 : S1024x16x1.ShapeCasts S1024x16
  natLt_1_32 : 1 < 32
  inb_S1024x16x5_S1024x16x1_0_0_1 : ∀ a, (![0, 0, 1] : Fin 3 → Nat) a + S1024x16x1.size a ≤ S1024x16x5.size a
  inb_S1024x16x5_S1024x16x1_0_0_2 : ∀ a, (![0, 0, 2] : Fin 3 → Nat) a + S1024x16x1.size a ≤ S1024x16x5.size a
  inb_S1024x16x5_S1024x16x1_0_0_3 : ∀ a, (![0, 0, 3] : Fin 3 → Nat) a + S1024x16x1.size a ≤ S1024x16x5.size a
  inb_S1024x16x5_S1024x16x1_0_0_4 : ∀ a, (![0, 0, 4] : Fin 3 → Nat) a + S1024x16x1.size a ≤ S1024x16x5.size a
  reduces_S1024x16_S1024 : S1024x16.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  inb_S1x1x4_S1x1x1_0_0_0 : ∀ a, (![0, 0, 0] : Fin 3 → Nat) a + S1x1x1.size a ≤ S1x1x4.size a
  h_S1x1x1 : 0 < S1x1x1.numel
  inb_S1x1x4_S1x1x1_0_0_1 : ∀ a, (![0, 0, 1] : Fin 3 → Nat) a + S1x1x1.size a ≤ S1x1x4.size a
  inb_S1x1x4_S1x1x1_0_0_2 : ∀ a, (![0, 0, 2] : Fin 3 → Nat) a + S1x1x1.size a ≤ S1x1x4.size a
  inb_S1x1x4_S1x1x1_0_0_3 : ∀ a, (![0, 0, 3] : Fin 3 → Nat) a + S1x1x1.size a ≤ S1x1x4.size a
  reducesTo_S2x1x4_S4_d0_1 : S2x1x4.ReducesTo [0, 1] S4
  h_S_ : 0 < S_.numel
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16x5.size a ≤ S2048x2704x5.size a
  hwx0_0 : ∀ i : grid0.Coords, EltTy.bits .f32 = 32 ∨ (Rect.block (s := S2048x2704x5) S1024x16x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16x5.size a ≤ S2048x2704x5.size a
  hwx0_1 : ∀ i : grid0.Coords, EltTy.bits .f32 = 32 ∨ (Rect.block (s := S2048x2704x5) S1024x16x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4.size a ≤ S2x1x4.size a
  hwx0_2 : ∀ i : grid0.Coords, EltTy.bits .f32 = 32 ∨ (Rect.block (s := S2x1x4) S1x1x4.size (cc0_transform_2 i) (hinb0_2 i)).WholeWords (EltTy.packing .f32)

variable [Facts₀]

abbrev win0_0 : Pipeline.Window sig grid0 :=
  Pipeline.Window.ofSpec (Memref.whole main_arg0) S1024x16x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x16x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x2704x5 : Shape := ⟨3, ![2048, 2704, 5]⟩
abbrev S2048x2704x1 : Shape := ⟨3, ![2048, 2704, 1]⟩
abbrev S2048x2704 : Shape := ⟨2, ![2048, 2704]⟩
abbrev S_ : Shape := ⟨0, ![]⟩
abbrev S2048x2704x4 : Shape := ⟨3, ![2048, 2704, 4]⟩

abbrev nBuf : Space → Nat
  | .hbm => 69
  | .vmem => 0
  | .smem => 0
  | _ => 0

abbrev bufTy : (tb : Table) → Fin (tcTables nBuf tb) → BufTy
  | .hbm, ⟨0, _⟩ => ⟨S2048x2704x5, .f32⟩
  | .hbm, ⟨1, _⟩ => ⟨S2048x2704x5, .f32⟩
  | .hbm, ⟨2, _⟩ => ⟨S2048x2704x1, .f32⟩
  | .hbm, ⟨3, _⟩ => ⟨S2048x2704, .f32⟩
  | .hbm, ⟨4, _⟩ => ⟨S_, .f32⟩
  | .hbm, ⟨5, _⟩ => ⟨S2048x2704, .f32⟩
  | .hbm, ⟨6, _⟩ => ⟨S2048x2704, .i1⟩
  | .hbm, ⟨7, _⟩ => ⟨S2048x2704, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2048x2704, .f32⟩
  | .hbm, ⟨12, _⟩ => ⟨S2048x2704, .f32⟩
  | .hbm, ⟨13, _⟩ => ⟨S_, .f32⟩
  | .hbm, ⟨14, _⟩ => ⟨S_, .f32⟩
  | .hbm, ⟨15, _⟩ => ⟨S2048x2704x4, .f32⟩
  | .hbm, ⟨16, _⟩ => ⟨S2048x2704x4, .f32⟩
  | .hbm, ⟨17, _⟩ => ⟨S2048x2704x4, .f32⟩
  | .hbm, ⟨18, _⟩ => ⟨S2048x2704x4, .f32⟩
  | .hbm, ⟨19, _⟩ => ⟨S_, .f32⟩
  | .hbm, ⟨20, _⟩ => ⟨S2048x2704, .f32⟩
  | .hbm, ⟨21, _⟩ => ⟨S2048x2704, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2048x2704x1, .f32⟩
  | .hbm, ⟨28, _⟩ => ⟨S2048x2704, .f32⟩
  | .hbm, ⟨29, _⟩ => ⟨S2048x2704x1, .f32⟩
  | .hbm, ⟨30, _⟩ => ⟨S2048x2704, .f32⟩
  | .hbm, ⟨31, _⟩ => ⟨S2048x2704, .f32⟩
  | .hbm, ⟨32, _⟩ => ⟨S_, .f32⟩
  | .hbm, ⟨33, _⟩ => ⟨S2048x2704, .f32⟩
  | .hbm, ⟨34, _⟩ => ⟨S2048x2704, .f32⟩
  | .hbm, ⟨35, _⟩ => ⟨S2048x2704, .f32⟩
  | .hbm, ⟨36, _⟩ => ⟨S2048x2704, .f32⟩
  | .hbm, ⟨37, _⟩ => ⟨S_, .f32⟩
  | .hbm, ⟨38, _⟩ => ⟨S2048x2704, .f32⟩
  | .hbm, ⟨39, _⟩ => ⟨S2048x2704, .f32⟩
  | .hbm, ⟨40, _⟩ => ⟨S2048x2704, .f32⟩
  | .hbm, ⟨41, _⟩ => ⟨S_, .f32⟩
  | .hbm, ⟨42, _⟩ => ⟨S2048x2704, .f32⟩
  | .hbm, ⟨43, _⟩ => ⟨S2048x2704, .f32⟩
  | .hbm, ⟨44, _⟩ => ⟨S2048x2704, .f32⟩
  | .hbm, ⟨45, _⟩ => ⟨S2048x2704, .f32⟩
  | .hbm, ⟨46, _⟩ => ⟨S2048x2704, .f32⟩
  | .hbm, ⟨47, _⟩ => ⟨S2048x2704, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S2048x2704, .f32⟩
  | .hbm, ⟨53, _⟩ => ⟨S2048x2704, .f32⟩
  | .hbm, ⟨54, _⟩ => ⟨S2048x2704, .f32⟩
  | .hbm, ⟨55, _⟩ => ⟨S2048x2704, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S2048x2704x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_cst_10 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_11 : Ref sig .tc := ⟨.hbm, 56, rfl⟩
abbrev main_v42 : Ref sig .tc := ⟨.hbm, 57, rfl⟩
abbrev main_v43 : Ref sig .tc := ⟨.hbm, 58, rfl⟩
abbrev main_cst_12 : Ref sig .tc := ⟨.hbm, 59, rfl⟩
abbrev main_v44 : Ref sig .tc := ⟨.hbm, 60, rfl⟩
abbrev main_cst_13 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_14 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  slices_S2048x2704x5_S2048x2704x1_0_0_0 : S2048x2704x5.Slices ![0, 0, 0] S2048x2704x1
  shapeCasts_S2048x2704x1_S2048x2704 : S2048x2704x1.ShapeCasts S2048x2704
  bcast_S_S2048x2704 : S_.BroadcastsInDim S2048x2704 (![] : Fin 0 → Fin S2048x2704.rank)
  reducesTo_S2048x2704_S_d0_1 : S2048x2704.ReducesTo [0, 1] S_
  h_S_ : 0 < S_.numel
  slices_S2048x2704x5_S2048x2704x4_0_0_1 : S2048x2704x5.Slices ![0, 0, 1] S2048x2704x4
  reducesTo_S2048x2704x4_S2048x2704_d2 : S2048x2704x4.ReducesTo [2] S2048x2704

variable [Facts₀]

class Facts : Prop extends Facts₀ where

variable [Facts]
-- ==== Proof.KPieces.lean ====
/-
  What the body leaves in its four accumulators, case by case.

  The body's three control cases differ only in what surrounds one common step: each accumulator ends at what it held
  plus the tile's part (`stepFace`, `stepBox`, `stepBce`, `stepBg`: the body's own arithmetic on the channels it
  loads from the two tiles).  At the first point of a row of tiles the accumulators are first reset, so the step starts
  from the reset value; at the last point of a row the four accumulators are copied, after the step, into the four
  entries of the output block.  Nothing here depends on the number system: the statements hold at any instance.
-/
import proofs.«164891_j38285338476689_1_alg».proof.Proof.Gen.KernelIdeal.Frame
import Idealize.ShloMosaic.Lib.Pipeline.Value
import Idealize.ShloMosaic.Lib.Tactic
import Idealize.ShloMosaic.Lib.ValueIdx

set_option maxRecDepth 16384

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl

/-- A tile: 1024 × 16 cells of five channels. -/
abbrev Tile (F : FTy → Type) [FloatOps F] := Vec F S1024x16x5 .f32

/-- Channel `k` of a tile, as the body loads it: the 1024 × 16 × 1 box at channel offset `k`. -/
abbrev ch0 (x : Tile F) : Vec F S1024x16x1 .f32 :=
  View.ld x (Rect.unit (s := S1024x16x5) ![0, 0, 0] S1024x16x1.size inb_S1024x16x5_S1024x16x1_0_0_0)
abbrev ch1 (x : Tile F) : Vec F S1024x16x1 .f32 :=
  View.ld x (Rect.unit (s := S1024x16x5) ![0, 0, 1] S1024x16x1.size inb_S1024x16x5_S1024x16x1_0_0_1)
abbrev ch2 (x : Tile F) : Vec F S1024x16x1 .f32 :=
  View.ld x (Rect.unit (s := S1024x16x5) ![0, 0, 2] S1024x16x1.size inb_S1024x16x5_S1024x16x1_0_0_2)
abbrev ch3 (x : Tile F) : Vec F S1024x16x1 .f32 :=
  View.ld x (Rect.unit (s := S1024x16x5) ![0, 0, 3] S1024x16x1.size inb_S1024x16x5_S1024x16x1_0_0_3)
abbrev ch4 (x : Tile F) : Vec F S1024x16x1 .f32 :=
  View.ld x (Rect.unit (s := S1024x16x5) ![0, 0, 4] S1024x16x1.size inb_S1024x16x5_S1024x16x1_0_0_4)

/-- The face counter's step: what it held plus the tile's face count. -/
def stepFace (xt yt : Tile F) (acc : Vec F S1x1 .f32) : Vec F S1x1 .f32 :=
  k0_pay1 (k0_pay20 (k0_pay15 (ch0 yt))) acc

/-- The box accumulator's step. -/
def stepBox (xt yt : Tile F) (acc : Vec F S1x1 .f32) : Vec F S1x1 .f32 :=
  k0_pay2 (k0_pay21 (k0_pay15 (ch0 yt)) (k0_pay16 (ch1 xt) (ch1 yt) (ch2 xt) (ch2 yt)) (k0_pay17 (ch3 xt)) (ch3 yt)
    (ch4 xt) (ch4 yt)) acc

/-- The cross-entropy accumulator's step. -/
def stepBce (xt yt : Tile F) (acc : Vec F S1x1 .f32) : Vec F S1x1 .f32 :=
  k0_pay3 (k0_pay22 (k0_pay13 (ch0 xt)) (k0_pay14 (ch0 yt)) (k0_pay15 (ch0 yt))) acc

/-- The background accumulator's step. -/
def stepBg (xt yt : Tile F) (acc : Vec F S1x1 .f32) : Vec F S1x1 .f32 :=
  k0_pay4 (k0_pay19 (k0_pay13 (ch0 xt)) (k0_pay15 (ch0 yt))) acc

variable (c : Dev nD) (i : grid0.Coords)
  (a2 : Memref sig .tc .vmem S1024x16x5 .f32) (h2 : a2.IsWhole) (a3 : Memref sig .tc .vmem S1024x16x5 .f32) (h3 : a3.IsWhole)
  (a4 : Memref sig .tc .vmem S1x1x4 .f32) (h4 : a4.IsWhole)
  (a5 : Memref sig .tc .vmem S1x1 .f32) (h5 : a5.IsWhole) (a6 : Memref sig .tc .vmem S1x1 .f32) (h6 : a6.IsWhole)
  (a7 : Memref sig .tc .vmem S1x1 .f32) (h7 : a7.IsWhole) (a8 : Memref sig .tc .vmem S1x1 .f32) (h8 : a8.IsWhole)
  (xt yt : Tile F) (s0 s1 s2 s3 : Vec F S1x1 .f32)

/-! ## A point inside a row of tiles: each accumulator steps from what the point before left -/

theorem sB0 (hc0 : ¬cond0_0 i) (hc1 : ¬cond0_1 i) :
    sout0_B_0 c i a2 h2 a3 h3 a4 h4 a5 h5 a6 h6 a7 h7 a8 h8 hc0 hc1 xt yt s0 s1 s2 s3 = stepFace xt yt s0 := by
  unfold sout0_B_0
  rw [View.read_writes_eq_canon _ _ _ (scover0_B_0 c i a2 h2 a3 h3 a4 h4 a5 h5 a6 h6 a7 h7 a8 h8 hc0 hc1 xt yt s0 s1 s2 s3)]
  unfold kernelRun0_B
  dsimp only
  sl_unfold_words
  rw [View.canon_unit_zero (S := S1x1) hz2]
  simp only [View.readAt_eq_ld, h2.read_unread, h3.read_unread, h5.read_unread, View.ld_unit_zero (S := S1x1) hz2]
  rfl

theorem sB1 (hc0 : ¬cond0_0 i) (hc1 : ¬cond0_1 i) :
    sout0_B_1 c i a2 h2 a3 h3 a4 h4 a5 h5 a6 h6 a7 h7 a8 h8 hc0 hc1 xt yt s0 s1 s2 s3 = stepBox xt yt s1 := by
  unfold sout0_B_1
  rw [View.read_writes_eq_canon _ _ _ (scover0_B_1 c i a2 h2 a3 h3 a4 h4 a5 h5 a6 h6 a7 h7 a8 h8 hc0 hc1 xt yt s0 s1 s2 s3)]
  unfold kernelRun0_B
  dsimp only
  sl_unfold_words
  rw [View.canon_unit_zero (S := S1x1) hz2]
  simp only [View.readAt_eq_ld, h2.read_unread, h3.read_unread, h6.read_unread, View.ld_unit_zero (S := S1x1) hz2]
  rfl

theorem sB2 (hc0 : ¬cond0_0 i) (hc1 : ¬cond0_1 i) :
    sout0_B_2 c i a2 h2 a3 h3 a4 h4 a5 h5 a6 h6 a7 h7 a8 h8 hc0 hc1 xt yt s0 s1 s2 s3 = stepBce xt yt s2 := by
  unfold sout0_B_2
  rw [View.read_writes_eq_canon _ _ _ (scover0_B_2 c i a2 h2 a3 h3 a4 h4 a5 h5 a6 h6 a7 h7 a8 h8 hc0 hc1 xt yt s0 s1 s2 s3)]
  unfold kernelRun0_B
  dsimp only
  sl_unfold_words
  rw [View.canon_unit_zero (S := S1x1) hz2]
  simp only [View.readAt_eq_ld, h2.read_unread, h3.read_unread, h7.read_unread, View.ld_unit_zero (S := S1x1) hz2]
  rfl

theorem sB3 (hc0 : ¬cond0_0 i) (hc1 : ¬cond0_1 i) :
    sout0_B_3 c i a2 h2 a3 h3 a4 h4 a5 h5 a6 h6 a7 h7 a8 h8 hc0 hc1 xt yt s0 s1 s2 s3 = stepBg xt yt s3 := by
  unfold sout0_B_3
  rw [View.read_writes_eq_canon _ _ _ (scover0_B_3 c i a2 h2 a3 h3 a4 h4 a5 h5 a6 h6 a7 h7 a8 h8 hc0 hc1 xt yt s0 s1 s2 s3)]
  unfold kernelRun0_B
  dsimp only
  sl_unfold_words
  rw [View.canon_unit_zero (S := S1x1) hz2]
  simp only [View.readAt_eq_ld, h2.read_unread, h3.read_unread, h8.read_unread, View.ld_unit_zero (S := S1x1) hz2]
  rfl

/-! ## The last point of a row of tiles: the same steps (the copy into the output block comes after them) -/

theorem sC0 (hc0 : ¬cond0_0 i) (hc1 : cond0_1 i) :
    sout0_C_0 c i a2 h2 a3 h3 a4 h4 a5 h5 a6 h6 a7 h7 a8 h8 hc0 hc1 xt yt s0 s1 s2 s3 = stepFace xt yt s0 := by
  unfold sout0_C_0
  rw [View.read_writes_eq_canon _ _ _ (scover0_C_0 c i a2 h2 a3 h3 a4 h4 a5 h5 a6 h6 a7 h7 a8 h8 hc0 hc1 xt yt s0 s1 s2 s3)]
  unfold kernelRun0_C
  dsimp only
  sl_unfold_words
  rw [View.canon_unit_zero (S := S1x1) hz2]
  simp only [View.readAt_eq_ld, h2.read_unread, h3.read_unread, h5.read_unread, View.ld_unit_zero (S := S1x1) hz2]
  rfl

theorem sC1 (hc0 : ¬cond0_0 i) (hc1 : cond0_1 i) :
    sout0_C_1 c i a2 h2 a3 h3 a4 h4 a5 h5 a6 h6 a7 h7 a8 h8 hc0 hc1 xt yt s0 s1 s2 s3 = stepBox xt yt s1 := by
  unfold sout0_C_1
  rw [View.read_writes_eq_canon _ _ _ (scover0_C_1 c i a2 h2 a3 h3 a4 h4 a5 h5 a6 h6 a7 h7 a8 h8 hc0 hc1 xt yt s0 s1 s2 s3)]
  unfold kernelRun0_C
  dsimp only
  sl_unfold_words
  rw [View.canon_unit_zero (S := S1x1) hz2]
  simp only [View.readAt_eq_ld, h2.read_unread, h3.read_unread, h6.read_unread, View.ld_unit_zero (S := S1x1) hz2]
  rfl

theorem sC2 (hc0 : ¬cond0_0 i) (hc1 : cond0_1 i) :
    sout0_C_2 c i a2 h2 a3 h3 a4 h4 a5 h5 a6 h6 a7 h7 a8 h8 hc0 hc1 xt yt s0 s1 s2 s3 = stepBce xt yt s2 := by
  unfold sout0_C_2
  rw [View.read_writes_eq_canon _ _ _ (scover0_C_2 c i a2 h2 a3 h3 a4 h4 a5 h5 a6 h6 a7 h7 a8 h8 hc0 hc1 xt yt s0 s1 s2 s3)]
  unfold kernelRun0_C
  dsimp only
  sl_unfold_words
  rw [View.canon_unit_zero (S := S1x1) hz2]
  simp only [View.readAt_eq_ld, h2.read_unread, h3.read_unread, h7.read_unread, View.ld_unit_zero (S := S1x1) hz2]
  rfl

theorem sC3 (hc0 : ¬cond0_0 i) (hc1 : cond0_1 i) :
    sout0_C_3 c i a2 h2 a3 h3 a4 h4 a5 h5 a6 h6 a7 h7 a8 h8 hc0 hc1 xt yt s0 s1 s2 s3 = stepBg xt yt s3 := by
  unfold sout0_C_3
  rw [View.read_writes_eq_canon _ _ _ (scover0_C_3 c i a2 h2 a3 h3 a4 h4 a5 h5 a6 h6 a7 h7 a8 h8 hc0 hc1 xt yt s0 s1 s2 s3)]
  unfold kernelRun0_C
  dsimp only
  sl_unfold_words
  rw [View.canon_unit_zero (S := S1x1) hz2]
  simp only [View.readAt_eq_ld, h2.read_unread, h3.read_unread, h8.read_unread, View.ld_unit_zero (S := S1x1) hz2]
  rfl

/-! ## The first point of a row of tiles: each accumulator is reset, then steps from the reset value -/

theorem sA0 (hc0 : cond0_0 i) (hc1 : ¬cond0_1 i) :
    sout0_A_0 c i a2 h2 a3 h3 a4 h4 a5 h5 a6 h6 a7 h7 a8 h8 hc0 hc1 xt yt = stepFace xt yt k0_pay9 := by
  unfold sout0_A_0
  rw [View.read_writes_eq_canon _ _ _ (scover0_A_0 c i a2 h2 a3 h3 a4 h4 a5 h5 a6 h6 a7 h7 a8 h8 hc0 hc1 xt yt)]
  unfold kernelRun0_A
  dsimp only
  sl_unfold_words
  rw [View.canon_cons_unit_zero (S := S1x1) hz2, View.readCov_unit_zero (S := S1x1) _ hz2]
  simp only [View.readAt_eq_ld, h2.read_unread, h3.read_unread]
  rfl

theorem sA1 (hc0 : cond0_0 i) (hc1 : ¬cond0_1 i) :
    sout0_A_1 c i a2 h2 a3 h3 a4 h4 a5 h5 a6 h6 a7 h7 a8 h8 hc0 hc1 xt yt = stepBox xt yt k0_pay10 := by
  unfold sout0_A_1
  rw [View.read_writes_eq_canon _ _ _ (scover0_A_1 c i a2 h2 a3 h3 a4 h4 a5 h5 a6 h6 a7 h7 a8 h8 hc0 hc1 xt yt)]
  unfold kernelRun0_A
  dsimp only
  sl_unfold_words
  rw [View.canon_cons_unit_zero (S := S1x1) hz2, View.readCov_unit_zero (S := S1x1) _ hz2]
  simp only [View.readAt_eq_ld, h2.read_unread, h3.read_unread]
  rfl

theorem sA2 (hc0 : cond0_0 i) (hc1 : ¬cond0_1 i) :
    sout0_A_2 c i a2 h2 a3 h3 a4 h4 a5 h5 a6 h6 a7 h7 a8 h8 hc0 hc1 xt yt = stepBce xt yt k0_pay11 := by
  unfold sout0_A_2
  rw [View.read_writes_eq_canon _ _ _ (scover0_A_2 c i a2 h2 a3 h3 a4 h4 a5 h5 a6 h6 a7 h7 a8 h8 hc0 hc1 xt yt)]
  unfold kernelRun0_A
  dsimp only
  sl_unfold_words
  rw [View.canon_cons_unit_zero (S := S1x1) hz2, View.readCov_unit_zero (S := S1x1) _ hz2]
  simp only [View.readAt_eq_ld, h2.read_unread, h3.read_unread]
  rfl

theorem sA3 (hc0 : cond0_0 i) (hc1 : ¬cond0_1 i) :
    sout0_A_3 c i a2 h2 a3 h3 a4 h4 a5 h5 a6 h6 a7 h7 a8 h8 hc0 hc1 xt yt = stepBg xt yt k0_pay12 := by
  unfold sout0_A_3
  rw [View.read_writes_eq_canon _ _ _ (scover0_A_3 c i a2 h2 a3 h3 a4 h4 a5 h5 a6 h6 a7 h7 a8 h8 hc0 hc1 xt yt)]
  unfold kernelRun0_A
  dsimp only
  sl_unfold_words
  rw [View.canon_cons_unit_zero (S := S1x1) hz2, View.readCov_unit_zero (S := S1x1) _ hz2]
  simp only [View.readAt_eq_ld, h2.read_unread, h3.read_unread]
  rfl

/-! ## The output block at the last point of a row of tiles -/

/-- The one index of a 1 × 1 array. -/
abbrev j0 : S1x1.Idx := ValueIdx.ix2 (0 : Fin 1) (0 : Fin 1)

theorem idx_S1x1 (j : S1x1.Idx) : j = j0 := funext fun d => Fin.ext (by
  have h := (j d).isLt
  match d with
  | ⟨0, _⟩ => exact Nat.lt_one_iff.mp h
  | ⟨1, _⟩ => exact Nat.lt_one_iff.mp h)

/-- Entry `k` of the output block after the last point of a row: accumulator `k` after its step. -/
def outEntry (xt yt : Tile F) (s0 s1 s2 s3 : Vec F S1x1 .f32) : Nat → F .f32
  | 0 => stepFace xt yt s0 j0
  | 1 => stepBox xt yt s1 j0
  | 2 => stepBce xt yt s2 j0
  | _ => stepBg xt yt s3 j0

/-- A 1 × 1 array recast as 1 × 1 × 1 holds its one entry. -/
theorem cast111 (v : Vec F S1x1 .f32) (x : S1x1x1.Idx) : shapeCast S1x1x1 v shapeCasts_S1x1_S1x1x1 x = v j0 := by
  unfold shapeCast
  exact congrArg v (idx_S1x1 _)

/-- The last coordinate of the one cell of a 1 × 1 × 1 box at channel offset `k` is `k`. -/
theorem lastCoord (k : Nat) (inb : ∀ a, (![0, 0, k] : Fin 3 → Nat) a + (![1, 1, 1] : Fin 3 → Nat) a ≤ S1x1x4.size a)
    (x : (Rect.unit (s := S1x1x4) ![0, 0, k] ![1, 1, 1] inb).shape.Idx) :
    ((Rect.unit (s := S1x1x4) ![0, 0, k] ![1, 1, 1] inb).emb x 2).val = k := by
  have h : (x 2).val < 1 := (x 2).isLt
  show k + 1 * (x 2).val = k
  omega

/-- After the last point of a row of tiles the output block holds, at (0, 0, k), accumulator `k` after its step: the
    four stores fill the four entries, each with the accumulator just stored. -/
theorem outC (hc0 : ¬cond0_0 i) (hc1 : cond0_1 i) (y : S1x1x4.Idx) :
    out0_C_2 c i a2 h2 a3 h3 a4 h4 a5 h5 a6 h6 a7 h7 a8 h8 hc0 hc1 xt yt s0 s1 s2 s3 y = outEntry xt yt s0 s1 s2 s3 (y 2).val := by
  unfold out0_C_2
  rw [View.read_writes_eq_canon _ _ _ (cover0_C_2 c i a2 h2 a3 h3 a4 h4 a5 h5 a6 h6 a7 h7 a8 h8 hc0 hc1 xt yt s0 s1 s2 s3)]
  refine View.canon_apply_of_pieces (fun y : S1x1x4.Idx => outEntry xt yt s0 s1 s2 s3 (y 2).val) _ ?_ y
    (cover0_C_2 c i a2 h2 a3 h3 a4 h4 a5 h5 a6 h6 a7 h7 a8 h8 hc0 hc1 xt yt s0 s1 s2 s3 y)
  unfold kernelRun0_C
  dsimp only
  sl_unfold_words
  intro p hp x
  simp only [List.mem_cons, List.mem_nil_iff, or_false] at hp
  rcases hp with rfl | rfl | rfl | rfl
  · dsimp only
    rw [lastCoord 3, View.readCov_unit_zero (S := S1x1) _ hz2]
    simp only [View.readAt_eq_ld, h2.read_unread, h3.read_unread, h8.read_unread, View.ld_unit_zero (S := S1x1) hz2]
    show shapeCast S1x1x1 (stepBg xt yt s3) shapeCasts_S1x1_S1x1x1 x = stepBg xt yt s3 j0
    exact cast111 _ x
  · dsimp only
    rw [lastCoord 2, View.readCov_unit_zero (S := S1x1) _ hz2]
    simp only [View.readAt_eq_ld, h2.read_unread, h3.read_unread, h7.read_unread, View.ld_unit_zero (S := S1x1) hz2]
    show shapeCast S1x1x1 (stepBce xt yt s2) shapeCasts_S1x1_S1x1x1 x = stepBce xt yt s2 j0
    exact cast111 _ x
  · dsimp only
    rw [lastCoord 1, View.readCov_unit_zero (S := S1x1) _ hz2]
    simp only [View.readAt_eq_ld, h2.read_unread, h3.read_unread, h6.read_unread, View.ld_unit_zero (S := S1x1) hz2]
    show shapeCast S1x1x1 (stepBox xt yt s1) shapeCasts_S1x1_S1x1x1 x = stepBox xt yt s1 j0
    exact cast111 _ x
  · dsimp only
    rw [lastCoord 0, View.readCov_unit_zero (S := S1x1) _ hz2]
    simp only [View.readAt_eq_ld, h2.read_unread, h3.read_unread, h5.read_unread, View.ld_unit_zero (S := S1x1) hz2]
    show shapeCast S1x1x1 (stepFace xt yt s0) shapeCasts_S1x1_S1x1x1 x = stepFace xt yt s0 j0
    exact cast111 _ x

end Cert.KernelIdeal.Pieces

end
-- ==== Proof.Regroup.lean ====
/-
  Sums over a grid of cells, regrouped by tiles, and the count of a complement.

  A grid of `N × N'` cells is cut into `m × m'` tiles of `n × n'` cells (`N = m n`, `N' = m' n'`); cell `r` of
  tile `a` along an axis is cell `r + n a` of the grid.  Addition in a commutative monoid does not care how a
  finite sum is grouped, so the sum over all cells is the sum over the tiles of each tile's own sum — this holds in the
  extended reals as it stands, with no finiteness asked of the summands.

  The second fact is about a 0/1 mask `g` with real values: the sum of `1 - g` over a finite index set is the
  number of indices minus the sum of `g`, also after the summands are read as extended reals (all of them are reals,
  so the subtraction never meets an infinity).
-/
import Mathlib.Data.EReal.Operations
import Mathlib.Algebra.BigOperators.Fin
import Mathlib.Algebra.BigOperators.Group.Finset.Basic
import Mathlib.Logic.Equiv.Fin.Basic

namespace Cert.FaceLoss

open scoped BigOperators

/-- Cell `r` of tile `a` along one axis: the grid's cell `r + n a`. -/
def tileIdx {m n N : ℕ} (h : N = m * n) (a : Fin m) (r : Fin n) : Fin N :=
  finCongr h.symm (finProdFinEquiv (a, r))

theorem tileIdx_val {m n N : ℕ} (h : N = m * n) (a : Fin m) (r : Fin n) :
    (tileIdx h a r).val = r.val + n * a.val := rfl

/-- A sum along an axis, tile by tile. -/
theorem sum_tiles {M : Type*} [AddCommMonoid M] {m n N : ℕ} (h : N = m * n) (f : Fin N → M) :
    ∑ i, f i = ∑ a : Fin m, ∑ r : Fin n, f (tileIdx h a r) :=
  (Equiv.sum_comp (finProdFinEquiv.trans (finCongr h.symm)) f).symm.trans (Fintype.sum_prod_type _)

/-- A sum over the grid, tile by tile: first over the tiles, then over the cells of each. -/
theorem sum_grid_tiles {M : Type*} [AddCommMonoid M] {m n N m' n' N' : ℕ} (h : N = m * n) (h' : N' = m' * n')
    (f : Fin N → Fin N' → M) :
    ∑ b, ∑ c, f b c = ∑ a : Fin m, ∑ a' : Fin m', ∑ r : Fin n, ∑ q : Fin n', f (tileIdx h a r) (tileIdx h' a' q) :=
  calc ∑ b, ∑ c, f b c
      = ∑ a : Fin m, ∑ r : Fin n, ∑ c, f (tileIdx h a r) c := sum_tiles h _
    _ = ∑ a : Fin m, ∑ r : Fin n, ∑ a' : Fin m', ∑ q : Fin n', f (tileIdx h a r) (tileIdx h' a' q) :=
        Finset.sum_congr rfl fun a _ => Finset.sum_congr rfl fun r _ => sum_tiles h' _
    _ = ∑ a : Fin m, ∑ a' : Fin m', ∑ r : Fin n, ∑ q : Fin n', f (tileIdx h a r) (tileIdx h' a' q) :=
        Finset.sum_congr rfl fun a _ => Finset.sum_comm

/-- Reading real summands as extended reals commutes with a finite sum. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Over a finite index set the sum of `1 - g` is the number of indices less the sum of `g`, for real `g` read in
    the extended reals. -/
theorem sum_one_sub {ι : Type*} [Fintype ι] (g : ι → ℝ) :
    ∑ i, ((1 : EReal) - (g i : EReal)) = ((Fintype.card ι : ℝ) : EReal) - ∑ i, (g i : EReal) := by
  have e : ∀ i, (1 : EReal) - (g i : EReal) = ((1 - g i : ℝ) : EReal) := fun i => by
    rw [EReal.coe_sub, EReal.coe_one]
  simp only [e]
  rw [← coe_sum, ← coe_sum, ← EReal.coe_sub, Finset.sum_sub_distrib, Finset.sum_const, Finset.card_univ,
    nsmul_eq_mul, mul_one]

/-- The same over a grid of `N × N'` cells, written as a double sum. -/
theorem sum_grid_one_sub {N N' : ℕ} (g : Fin N → Fin N' → ℝ) :
    ∑ b, ∑ c, ((1 : EReal) - (g b c : EReal)) = (((N * N' : ℕ) : ℝ) : EReal) - ∑ b, ∑ c, (g b c : EReal) := by
  rw [← Fintype.sum_prod_type' (fun b c => (1 : EReal) - (g b c : EReal)),
    ← Fintype.sum_prod_type' (fun b c => (g b c : EReal))]
  have := sum_one_sub (fun p : Fin N × Fin N' => g p.1 p.2)
  rw [this, Fintype.card_prod, Fintype.card_fin, Fintype.card_fin]

end Cert.FaceLoss
-- ==== Proof.Cells.lean ====
/-
  The loss, cell by cell, over the extended reals.

  The two inputs are grids of 2048 × 2704 cells with five channels each: channel 0 of the prediction `X` is a
  confidence `c`, channel 0 of the label `Y` a target `t`, channels 1–4 box coordinates.  A cell is a "face" cell when
  its target exceeds one half; `mask t` is then `1`, otherwise `0` (always a real number, whatever `t` is).  Per cell:

    box error      (x₁ − y₁)² + (x₂ − y₂)² + (x₃ − y₃)² + (x₄ − y₄)²
    log terms      max (log c) (−100)   and   max (log (1 + (−c))) (−100)
    cross entropy  −(t · logC c + (1 − t) · log1mC c)
    background     (1 − mask t) · (−log1mC c)

  The loss is a fixed function `lossOf` of five totals over the grid: the number of face cells, the masked box error,
  the masked cross entropy, the background term, and the number of cells that are not faces.  Since every mask value
  is the real 0 or 1, the last total is the number of cells, 2048 · 2704 = 5537792, less the first
  (`rest_total`): the one place where the two programs spell different arithmetic.
-/
import Idealize.ShloMosaic.PureOps.Ideal
import Idealize.ShloMosaic.PureOps.Ideal.Laws
import Idealize.ShloMosaic.Lib.ValueIdx
import proofs.«164891_j38285338476689_1_alg».proof.Proof.Regroup

noncomputable section

namespace Cert.FaceLoss

open Idealize.ShloMosaic Idealize.ShloMosaic.ValueIdx
open scoped BigOperators

/-! ## The float words the programs spell -/

/-- `1.0` denotes the real one. -/
theorem ofBits_one : Ideal.ofBits .f32 0x3F800000#32 = 1 := by
  simp [Ideal.ofBits, Ideal.ieee, -EReal.coe_mul]; norm_num

/-- `5537792.0` denotes the number of cells of the grid. -/
theorem ofBits_cells : Ideal.ofBits .f32 0x4AA90000#32 = (((2048 * 2704 : ℕ) : ℝ) : EReal) := by
  simp [Ideal.ofBits, Ideal.ieee, -EReal.coe_mul]; norm_num

/-! ## One cell -/

/-- The mask of a cell with target `t`, as a real: `1` where `t` exceeds one half, else `0`. -/
def maskR (t : EReal) : ℝ := ((Ideal.cmp .ogt t (Ideal.ofBits .f32 0x3F000000#32)).toNat : ℝ)

/-- The mask as an extended real. -/
def mask (t : EReal) : EReal := (maskR t : EReal)

/-- The square of a difference. -/
def sqDiff (a b : EReal) : EReal := (a - b) * (a - b)

/-- The box error of a cell: the four squared coordinate differences, summed first to last. -/
def box (x1 y1 x2 y2 x3 y3 x4 y4 : EReal) : EReal := sqDiff x1 y1 + sqDiff x2 y2 + sqDiff x3 y3 + sqDiff x4 y4

/-- `log c`, not below `−100`. -/
def logC (c : EReal) : EReal := max (Ideal.log c) (Ideal.ofBits .f32 0xC2C80000#32)

/-- `log (1 − c)` (computed as `log1p (−c)`), not below `−100`. -/
def log1mC (c : EReal) : EReal := max (Ideal.log1p (-c)) (Ideal.ofBits .f32 0xC2C80000#32)

/-- The binary cross entropy of confidence `c` against target `t`. -/
def bce (c t : EReal) : EReal := -(t * logC c + (Ideal.ofBits .f32 0x3F800000#32 - t) * log1mC c)

/-- The background term: the cross entropy against target `0`, on the cells that are not faces. -/
def bgTerm (c t : EReal) : EReal := (Ideal.ofBits .f32 0x3F800000#32 - mask t) * (-(log1mC c))

/-! ## The grid -/

/-- An input: 2048 × 2704 cells of five channels. -/
abbrev Grid := (⟨3, ![2048, 2704, 5]⟩ : Shape).Idx → EReal

def faceAt (Y : Grid) (b : Fin 2048) (c : Fin 2704) : EReal := mask (Y (ix3 b c 0))

def boxAt (X Y : Grid) (b : Fin 2048) (c : Fin 2704) : EReal :=
  mask (Y (ix3 b c 0)) * box (X (ix3 b c 1)) (Y (ix3 b c 1)) (X (ix3 b c 2)) (Y (ix3 b c 2))
    (X (ix3 b c 3)) (Y (ix3 b c 3)) (X (ix3 b c 4)) (Y (ix3 b c 4))

def bceAt (X Y : Grid) (b : Fin 2048) (c : Fin 2704) : EReal :=
  mask (Y (ix3 b c 0)) * bce (X (ix3 b c 0)) (Y (ix3 b c 0))

def bgAt (X Y : Grid) (b : Fin 2048) (c : Fin 2704) : EReal := bgTerm (X (ix3 b c 0)) (Y (ix3 b c 0))

def restAt (Y : Grid) (b : Fin 2048) (c : Fin 2704) : EReal := Ideal.ofBits .f32 0x3F800000#32 - mask (Y (ix3 b c 0))

/-- The total of a per-cell term over the grid. -/
def total (f : Fin 2048 → Fin 2704 → EReal) : EReal := ∑ b, ∑ c, f b c

/-- The cells that are not faces number the cells less the faces: every mask value is a real, so the sum of
    `1 − mask` is the count less the sum of the masks, with no infinity in sight. -/
theorem rest_total (Y : Grid) : total (restAt Y) = Ideal.ofBits .f32 0x4AA90000#32 - total (faceAt Y) := by
  unfold total restAt faceAt mask
  rw [ofBits_one, ofBits_cells]
  exact sum_grid_one_sub fun b c => maskR (Y (ix3 b c 0))

/-! ## The loss from the five totals -/

/-- A scalar as a rank-0 array. -/
abbrev splat (v : EReal) : FVec Ideal ⟨0, ![]⟩ .f32 := fun _ => v

/-- The loss as both programs compute it from the totals `F` (faces), `BOX`, `BCE`, `BG` and `R` (the cells that are
    not faces): `(1 + 1/F) · BOX / (4 F) + (1 + 1/F) · BCE / F + 1 · BG / R`, operation by operation. -/
def lossOf (Fn BOX BCE BG R : FVec Ideal ⟨0, ![]⟩ .f32) : FVec Ideal ⟨0, ![]⟩ .f32 :=
  addf
    (addf
      (mulf (addf (constant (F := Ideal) ⟨0, ![]⟩ .f32 0x3F800000#32) (Host.divf (constant (F := Ideal) ⟨0, ![]⟩ .f32 0x3F800000#32) Fn))
        (Host.divf BOX (mulf (constant (F := Ideal) ⟨0, ![]⟩ .f32 0x40800000#32) Fn)))
      (mulf (addf (constant (F := Ideal) ⟨0, ![]⟩ .f32 0x3F800000#32) (Host.divf (constant (F := Ideal) ⟨0, ![]⟩ .f32 0x3F800000#32) Fn))
        (Host.divf BCE Fn)))
    (mulf (constant (F := Ideal) ⟨0, ![]⟩ .f32 0x3F800000#32) (Host.divf BG R))

/-- The loss of a pair of inputs. -/
def loss (X Y : Grid) : FVec Ideal ⟨0, ![]⟩ .f32 :=
  lossOf (splat (total (faceAt Y))) (splat (total (boxAt X Y))) (splat (total (bceAt X Y))) (splat (total (bgAt X Y)))
    (splat (total (restAt Y)))

end Cert.FaceLoss

end
-- ==== Proof.TileSums.lean ====
/-
  One tile of 1024 × 16 cells: its sum, and a channel read out of it.

  The kernel sums a tile in two steps — along the 16 lanes of each row, then along the 1024 rows, with a change of
  layout in between and after — and over the extended reals that is the double sum of the tile's entries, rows outside.
  A channel of a tile arrives as a 1024 × 16 × 1 array whose unit axis is then dropped: entry (r, q) of the result is
  entry (r, q, 0) of the operand.  The kernel makes the mask by widening the comparison's bit and converting it as a
  signed integer; of one bit that is the bit's value as a natural number, which is how the mask is specified.
-/
import Idealize.ShloMosaic.PureOps.Ideal.Laws
import Idealize.ShloMosaic.Lib.ValueIdx
import Idealize.ShloMosaic.Lib.Pipeline.Value
import Idealize.ShloMosaic.Lib.KernelVsHost
import proofs.«164891_j38285338476689_1_alg».proof.Proof.Cells

noncomputable section

namespace Cert.FaceLoss

open Idealize.ShloMosaic Idealize.ShloMosaic.ValueIdx
open scoped BigOperators

/-- Dropping the unit channel axis of a tile's channel: entry (r, q) is entry (r, q, 0). -/
theorem dropChannel_apply {α : Type} (v : (⟨3, ![1024, 16, 1]⟩ : Shape).Idx → α)
    (h : (⟨3, ![1024, 16, 1]⟩ : Shape).ShapeCasts ⟨2, ![1024, 16]⟩) (r : Fin 1024) (q : Fin 16) :
    shapeCast ⟨2, ![1024, 16]⟩ v h (ix2 r q) = v (ix3 r q 0) :=
  shapeCast_apply v h (ix2 r q) (ix3 r q 0) (by
    rw [Shape.rowMajor_val_three, Shape.rowMajor_val_two]
    show (r.val * 16 + q.val) * 1 + 0 = r.val * 16 + q.val
    omega)

/-- The tile's sum as the kernel takes it (lanes, then rows) is the double sum of its entries. -/
theorem tile_sum (v : FVec Ideal ⟨2, ![1024, 16]⟩ .f32)
    (h1 : (⟨2, ![1024, 16]⟩ : Shape).Reduces [1] ⟨1, ![1024]⟩)
    (hc1 : (⟨1, ![1024]⟩ : Shape).ShapeCasts ⟨2, ![1024, 1]⟩)
    (h0 : (⟨2, ![1024, 1]⟩ : Shape).Reduces [0] ⟨1, ![1]⟩)
    (hc0 : (⟨1, ![1]⟩ : Shape).ShapeCasts ⟨2, ![1, 1]⟩) (j : (⟨2, ![1, 1]⟩ : Shape).Idx) :
    shapeCast ⟨2, ![1, 1]⟩
        (multiReduction .add [0] ⟨1, ![1]⟩
          (shapeCast ⟨2, ![1024, 1]⟩ (multiReduction .add [1] ⟨1, ![1024]⟩ v 0x00000000#32 h1 (.inl rfl) rfl) hc1)
          0x00000000#32 h0 (.inl rfl) rfl) hc0 j
      = ∑ r : Fin 1024, ∑ q : Fin 16, v (ix2 r q) := by
  have hj0 : (j 0).val = 0 := by have := (j 0).isLt; simp at this; omega
  have hj1 : (j 1).val = 0 := by have := (j 1).isLt; simp at this; omega
  refine (shapeCast_apply _ hc0 j (ix1 (0 : Fin 1)) (by
    rw [Shape.rowMajor_val_one, Shape.rowMajor_val_two, hj0, hj1]; rfl)).trans ?_
  refine (Ideal.multiReduction_add_single _ 0x00000000#32 h0 (.inl rfl) rfl (ix1 (0 : Fin 1))).trans ?_
  refine Finset.sum_congr rfl fun r _ => ?_
  refine (shapeCast_apply _ hc1 _ (ix1 (r : Fin 1024)) (by
    rw [Shape.rowMajor_val_one, Shape.rowMajor_val_two]
    show r.val = r.val * 1 + 0
    omega)).trans ?_
  refine (Ideal.multiReduction_add_single v 0x00000000#32 h1 (.inl rfl) rfl (ix1 (r : Fin 1024))).trans ?_
  refine Finset.sum_congr rfl fun q _ => ?_
  exact congrArg v (funext fun a => Fin.ext (by match a with | ⟨0, _⟩ => rfl | ⟨1, _⟩ => rfl))

/-- One bit, widened to 32 bits and read as a signed integer, is the bit's value: the kernel's mask is the
    specified one. -/
theorem mask_of_bit (t : EReal) :
    ((((Ideal.cmp .ogt t (Ideal.ofBits .f32 0x3F000000#32)).setWidth 32).toInt : ℝ) : EReal) = mask t := by
  unfold mask maskR
  rw [toInt_setWidth_bit]
  norm_cast

end Cert.FaceLoss

end
-- ==== Proof.KTile.lean ====
/-
  What the kernel's body computes from one tile, over the extended reals.

  From the five channels of a tile of predictions and of labels (each read as a 1024 × 16 × 1 array) the body forms
  four numbers: the tile's face count, its masked box error, its masked cross entropy and its background term — each
  the double sum over the tile's cells of the per-cell term of the specification.  The body spells a negation as
  `0 − x` and starts the box error from an explicit `0`; over the extended reals `0 − x = −x` and `0 + x = x`
  with no condition on `x`.
-/
import proofs.«164891_j38285338476689_1_alg».proof.Proof.Gen.KernelIdeal.Skeleton
import proofs.«164891_j38285338476689_1_alg».proof.Proof.TileSums

noncomputable section

namespace Cert.KernelIdeal.Tile

open Cert.KernelIdeal Cert.KernelIdeal.Gen Cert.FaceLoss
open Idealize.ShloMosaic Idealize.ShloMosaic.ValueIdx
open scoped BigOperators

/-- A channel of a tile as the body reads it: 1024 × 16 cells with a unit channel axis. -/
abbrev Chan := Vec Ideal S1024x16x1 .f32

/-- The mask the body forms, at a cell. -/
theorem mask_at (y0 : Chan) (r : Fin 1024) (q : Fin 16) :
    k0_pay15 (F := Ideal) y0 (ix2 r q) = mask (y0 (ix3 r q 0)) := by
  unfold k0_pay15 k0_pay14
  show ((((Ideal.cmp .ogt (shapeCast S1024x16 y0 shapeCasts_S1024x16x1_S1024x16 (ix2 r q))
    (Ideal.ofBits .f32 0x3F000000#32)).setWidth 32).toInt : ℝ) : EReal) = _
  rw [dropChannel_apply]
  exact mask_of_bit _

/-- The clamped `log (1 − c)` the body forms, at a cell. -/
theorem log1mC_at (x0 : Chan) (r : Fin 1024) (q : Fin 16) :
    k0_pay18 (F := Ideal) (k0_pay13 x0) (ix2 r q) = log1mC (x0 (ix3 r q 0)) := by
  unfold k0_pay18 k0_pay13
  show max (Ideal.log1p (Ideal.ofBits .f32 0x00000000#32
    - shapeCast S1024x16 x0 shapeCasts_S1024x16x1_S1024x16 (ix2 r q))) (Ideal.ofBits .f32 0xC2C80000#32) = _
  rw [dropChannel_apply, Ideal.ofBits_zero_f32, zero_sub]
  rfl

/-- The tile's face count. -/
theorem face_part (y0 : Chan) (j : S1x1.Idx) :
    k0_pay20 (F := Ideal) (k0_pay15 y0) j = ∑ r : Fin 1024, ∑ q : Fin 16, mask (y0 (ix3 r q 0)) := by
  unfold k0_pay20
  refine (tile_sum _ _ _ _ _ j).trans ?_
  exact Finset.sum_congr rfl fun r _ => Finset.sum_congr rfl fun q _ => mask_at y0 r q

/-- The tile's masked box error. -/
theorem box_part (y0 x1 y1 x2 y2 x3 y3 x4 y4 : Chan) (j : S1x1.Idx) :
    k0_pay21 (F := Ideal) (k0_pay15 y0) (k0_pay16 x1 y1 x2 y2) (k0_pay17 x3) y3 x4 y4 j
      = ∑ r : Fin 1024, ∑ q : Fin 16, mask (y0 (ix3 r q 0)) *
          box (x1 (ix3 r q 0)) (y1 (ix3 r q 0)) (x2 (ix3 r q 0)) (y2 (ix3 r q 0))
            (x3 (ix3 r q 0)) (y3 (ix3 r q 0)) (x4 (ix3 r q 0)) (y4 (ix3 r q 0)) := by
  unfold k0_pay21
  refine (tile_sum _ _ _ _ _ j).trans ?_
  refine Finset.sum_congr rfl fun r _ => Finset.sum_congr rfl fun q _ => ?_
  show k0_pay15 (F := Ideal) y0 (ix2 r q) * _ = _
  rw [mask_at]
  refine congrArg (mask (y0 (ix3 r q 0)) * ·) ?_
  unfold k0_pay16 k0_pay17
  show Ideal.ofBits .f32 0x00000000#32
      + (shapeCast S1024x16 x1 shapeCasts_S1024x16x1_S1024x16 (ix2 r q) - shapeCast S1024x16 y1 shapeCasts_S1024x16x1_S1024x16 (ix2 r q))
        * (shapeCast S1024x16 x1 shapeCasts_S1024x16x1_S1024x16 (ix2 r q) - shapeCast S1024x16 y1 shapeCasts_S1024x16x1_S1024x16 (ix2 r q))
      + (shapeCast S1024x16 x2 shapeCasts_S1024x16x1_S1024x16 (ix2 r q) - shapeCast S1024x16 y2 shapeCasts_S1024x16x1_S1024x16 (ix2 r q))
        * (shapeCast S1024x16 x2 shapeCasts_S1024x16x1_S1024x16 (ix2 r q) - shapeCast S1024x16 y2 shapeCasts_S1024x16x1_S1024x16 (ix2 r q))
      + (shapeCast S1024x16 x3 shapeCasts_S1024x16x1_S1024x16 (ix2 r q) - shapeCast S1024x16 y3 shapeCasts_S1024x16x1_S1024x16 (ix2 r q))
        * (shapeCast S1024x16 x3 shapeCasts_S1024x16x1_S1024x16 (ix2 r q) - shapeCast S1024x16 y3 shapeCasts_S1024x16x1_S1024x16 (ix2 r q))
      + (shapeCast S1024x16 x4 shapeCasts_S1024x16x1_S1024x16 (ix2 r q) - shapeCast S1024x16 y4 shapeCasts_S1024x16x1_S1024x16 (ix2 r q))
        * (shapeCast S1024x16 x4 shapeCasts_S1024x16x1_S1024x16 (ix2 r q) - shapeCast S1024x16 y4 shapeCasts_S1024x16x1_S1024x16 (ix2 r q))
      = _
  simp only [dropChannel_apply, Ideal.ofBits_zero_f32, zero_add]
  rfl

/-- The tile's masked cross entropy (the lane sums of the body, then its row sum). -/
theorem bce_part (x0 y0 : Chan) (acc : Vec Ideal S1x1 .f32) (j : S1x1.Idx) :
    k0_pay3 (F := Ideal) (k0_pay22 (k0_pay13 x0) (k0_pay14 y0) (k0_pay15 y0)) acc j
      = acc j + ∑ r : Fin 1024, ∑ q : Fin 16, mask (y0 (ix3 r q 0)) * bce (x0 (ix3 r q 0)) (y0 (ix3 r q 0)) := by
  unfold k0_pay3 k0_pay22
  rw [shapeCast_self]
  show acc j + _ = _
  refine congrArg (acc j + ·) ?_
  refine (tile_sum _ _ _ _ _ j).trans ?_
  refine Finset.sum_congr rfl fun r _ => Finset.sum_congr rfl fun q _ => ?_
  show k0_pay15 (F := Ideal) y0 (ix2 r q) * (Ideal.ofBits .f32 0x00000000#32
    - (k0_pay14 (F := Ideal) y0 (ix2 r q) * max (Ideal.log (k0_pay13 (F := Ideal) x0 (ix2 r q))) (Ideal.ofBits .f32 0xC2C80000#32)
      + (Ideal.ofBits .f32 0x3F800000#32 - k0_pay14 (F := Ideal) y0 (ix2 r q)) * k0_pay18 (F := Ideal) (k0_pay13 x0) (ix2 r q))) = _
  rw [mask_at, log1mC_at, Ideal.ofBits_zero_f32, zero_sub]
  unfold k0_pay14 k0_pay13
  simp only [dropChannel_apply]
  rfl

/-- The tile's background term. -/
theorem bg_part (x0 y0 : Chan) (acc : Vec Ideal S1x1 .f32) (j : S1x1.Idx) :
    k0_pay4 (F := Ideal) (k0_pay19 (k0_pay13 x0) (k0_pay15 y0)) acc j
      = acc j + ∑ r : Fin 1024, ∑ q : Fin 16, bgTerm (x0 (ix3 r q 0)) (y0 (ix3 r q 0)) := by
  unfold k0_pay4 k0_pay19
  rw [shapeCast_self]
  show acc j + _ = _
  refine congrArg (acc j + ·) ?_
  refine (tile_sum _ _ _ _ _ j).trans ?_
  refine Finset.sum_congr rfl fun r _ => Finset.sum_congr rfl fun q _ => ?_
  show (Ideal.ofBits .f32 0x3F800000#32 - k0_pay15 (F := Ideal) y0 (ix2 r q))
    * (Ideal.ofBits .f32 0x00000000#32 - k0_pay18 (F := Ideal) (k0_pay13 x0) (ix2 r q)) = _
  rw [mask_at, log1mC_at, Ideal.ofBits_zero_f32, zero_sub]
  rfl

/-- An accumulator's step: what was there plus the tile's part. -/
theorem add_part (part acc : Vec Ideal S1x1 .f32) (j : S1x1.Idx) :
    k0_pay1 (F := Ideal) part acc j = acc j + part j := by
  unfold k0_pay1
  rw [shapeCast_self]
  rfl

theorem add_part2 (part acc : Vec Ideal S1x1 .f32) (j : S1x1.Idx) :
    k0_pay2 (F := Ideal) part acc j = acc j + part j := by
  unfold k0_pay2
  rw [shapeCast_self]
  rfl

/-- The value an accumulator is reset to is zero. -/
theorem reset_val (j : S1x1.Idx) : k0_pay9 (F := Ideal) j = 0 ∧ k0_pay10 (F := Ideal) j = 0
    ∧ k0_pay11 (F := Ideal) j = 0 ∧ k0_pay12 (F := Ideal) j = 0 := by
  unfold k0_pay9 k0_pay10 k0_pay11 k0_pay12
  simp only [shapeCast_self]
  exact ⟨Ideal.ofBits_zero_f32, Ideal.ofBits_zero_f32, Ideal.ofBits_zero_f32, Ideal.ofBits_zero_f32⟩

end Cert.KernelIdeal.Tile

end
-- ==== Proof.Tiles.lean ====
/-
  The tile a grid point works on.

  The kernel visits 338 = 2 · 169 grid points; point `n` works on the tile of rows 1024 · (n / 169) … + 1023 and
  columns 16 · (n % 169) … + 15 of the grid of cells.  `tilePart f n` is the sum of a per-cell term `f` over that
  tile (and `0` past the last point, so that it is a function of every natural number).
-/
import proofs.«164891_j38285338476689_1_alg».proof.Proof.Cells

noncomputable section

namespace Cert.FaceLoss

open scoped BigOperators

/-- Row `r` of the tile of grid point `n`. -/
def rowOf (n : ℕ) (h : n < 338) (r : Fin 1024) : Fin 2048 :=
  ⟨1024 * (n / 169) + r.val, by have := r.isLt; omega⟩

/-- Column `q` of the tile of grid point `n`. -/
def colOf (n : ℕ) (_h : n < 338) (q : Fin 16) : Fin 2704 :=
  ⟨16 * (n % 169) + q.val, by have := q.isLt; have := Nat.mod_lt n (by decide : 0 < 169); omega⟩

/-- The sum of a per-cell term over the tile of grid point `n`. -/
def tilePart (f : Fin 2048 → Fin 2704 → EReal) (n : ℕ) : EReal :=
  if h : n < 338 then ∑ r : Fin 1024, ∑ q : Fin 16, f (rowOf n h r) (colOf n h q) else 0

theorem tilePart_of_lt (f : Fin 2048 → Fin 2704 → EReal) (n : ℕ) (h : n < 338) :
    tilePart f n = ∑ r : Fin 1024, ∑ q : Fin 16, f (rowOf n h r) (colOf n h q) := dif_pos h

end Cert.FaceLoss

end
-- ==== Proof.KSteps.lean ====
/-
  The four accumulator steps at a grid point, in terms of the argument arrays.

  At grid point `t` the two input windows hold the tiles of rows 1024 · (t / 169) … and columns 16 · (t % 169) … of
  the predictions `X` and the labels `Y`: entry (r, q, k) of a tile is entry (rowOf t r, colOf t q, k) of its array,
  and channel `k` of a tile read at (r, q, 0) is the tile at (r, q, k).  So over the extended reals each accumulator's
  step adds to what it held the sum over that tile of its per-cell term: `tilePart` of the term at `t`.
-/
import proofs.«164891_j38285338476689_1_alg».proof.Proof.Gen.KernelIdeal.Frame
import proofs.«164891_j38285338476689_1_alg».proof.Proof.KPieces
import proofs.«164891_j38285338476689_1_alg».proof.Proof.KTile
import proofs.«164891_j38285338476689_1_alg».proof.Proof.Tiles

set_option maxRecDepth 16384

noncomputable section

namespace Cert.KernelIdeal.Steps

open Cert.KernelIdeal Cert.KernelIdeal.Gen Cert.KernelIdeal.Pieces Cert.KernelIdeal.Tile Cert.FaceLoss
open Idealize.ShloMosaic Idealize.ShloMosaic.TcCoe Idealize.SL.Sem Idealize.ShloMosaic.ValueIdx
open scoped BigOperators

variable (m : (ℓ : Loc nD τ sig) → Buf (Elt Ideal) ℓ)

/-- The predictions on core `c`. -/
abbrev X (c : Dev nD) : Grid := m ((c : Thread nD τ).loc main_arg0)
/-- The labels on core `c`. -/
abbrev Y (c : Dev nD) : Grid := m ((c : Thread nD τ).loc main_arg1)

/-- The tile of predictions at grid point `t`. -/
abbrev xTile (c : Dev nD) (t : Fin cfg0.N) : Tile Ideal := iblk m c 0 t
/-- The tile of labels at grid point `t`. -/
abbrev yTile (c : Dev nD) (t : Fin cfg0.N) : Tile Ideal := iblk m c 1 t

theorem lt338 (t : Fin cfg0.N) : t.val < 338 := lt_of_lt_of_eq t.isLt (show cfg0.N = 338 from N_0)

/-- Where the two windows' blocks sit: block (t / 169, t % 169, 0). -/
theorem index0 : ∀ t : Fin cfg0.N, win0_0.index t 0 = t.val / 169 ∧ win0_0.index t 1 = t.val % 169 ∧ win0_0.index t 2 = 0 :=
  (by decide +kernel : ∀ t : Fin grid0.N, _)
theorem index1 : ∀ t : Fin cfg0.N, win0_1.index t 0 = t.val / 169 ∧ win0_1.index t 1 = t.val % 169 ∧ win0_1.index t 2 = 0 :=
  (by decide +kernel : ∀ t : Fin grid0.N, _)

/-- An entry of the tile of predictions is the array's entry at the tile's row and column. -/
theorem xTile_apply (c : Dev nD) (t : Fin cfg0.N) (r : Fin 1024) (q : Fin 16) (k : Fin 5) :
    xTile m c t (ix3 r q k) = X m c (ix3 (rowOf t.val (lt338 t) r) (colOf t.val (lt338 t) q) k) := by
  show iblk m c 0 t (ix3 r q k) = _
  unfold iblk
  rw [View.read_apply]
  show V m c main_arg0 _ = m ((c : Thread nD τ).loc main_arg0) _
  unfold V
  congr 1
  funext a
  apply Fin.ext
  match a with
  | ⟨0, _⟩ => show win0_0.index t 0 * 1024 + 1 * r.val = 1024 * (t.val / 169) + r.val; rw [(index0 t).1]; omega
  | ⟨1, _⟩ => show win0_0.index t 1 * 16 + 1 * q.val = 16 * (t.val % 169) + q.val; rw [(index0 t).2.1]; omega
  | ⟨2, _⟩ => show win0_0.index t 2 * 5 + 1 * k.val = k.val; rw [(index0 t).2.2]; omega

/-- An entry of the tile of labels likewise. -/
theorem yTile_apply (c : Dev nD) (t : Fin cfg0.N) (r : Fin 1024) (q : Fin 16) (k : Fin 5) :
    yTile m c t (ix3 r q k) = Y m c (ix3 (rowOf t.val (lt338 t) r) (colOf t.val (lt338 t) q) k) := by
  show iblk m c 1 t (ix3 r q k) = _
  unfold iblk
  rw [View.read_apply]
  show V m c main_arg1 _ = m ((c : Thread nD τ).loc main_arg1) _
  unfold V
  congr 1
  funext a
  apply Fin.ext
  match a with
  | ⟨0, _⟩ => show win0_1.index t 0 * 1024 + 1 * r.val = 1024 * (t.val / 169) + r.val; rw [(index1 t).1]; omega
  | ⟨1, _⟩ => show win0_1.index t 1 * 16 + 1 * q.val = 16 * (t.val % 169) + q.val; rw [(index1 t).2.1]; omega
  | ⟨2, _⟩ => show win0_1.index t 2 * 5 + 1 * k.val = k.val; rw [(index1 t).2.2]; omega

/-- Channel `k` of a tile, read at (r, q, 0), is the tile at (r, q, k). -/
theorem ch_apply (x : Tile Ideal) (k : Fin 5)
    (inb : ∀ a, (![0, 0, k.val] : Fin 3 → Nat) a + S1024x16x1.size a ≤ S1024x16x5.size a) (r : Fin 1024) (q : Fin 16) :
    View.ld x (Rect.unit (s := S1024x16x5) ![0, 0, k.val] S1024x16x1.size inb) (ix3 r q 0) = x (ix3 r q k) :=
  congrArg x (funext fun a => Fin.ext (by
    match a with
    | ⟨0, _⟩ => show 0 + 1 * r.val = r.val; omega
    | ⟨1, _⟩ => show 0 + 1 * q.val = q.val; omega
    | ⟨2, _⟩ => show k.val + 1 * 0 = k.val; omega))

theorem ch0_apply (x : Tile Ideal) (r : Fin 1024) (q : Fin 16) : ch0 x (ix3 r q 0) = x (ix3 r q 0) := ch_apply x 0 _ r q
theorem ch1_apply (x : Tile Ideal) (r : Fin 1024) (q : Fin 16) : ch1 x (ix3 r q 0) = x (ix3 r q 1) := ch_apply x 1 _ r q
theorem ch2_apply (x : Tile Ideal) (r : Fin 1024) (q : Fin 16) : ch2 x (ix3 r q 0) = x (ix3 r q 2) := ch_apply x 2 _ r q
theorem ch3_apply (x : Tile Ideal) (r : Fin 1024) (q : Fin 16) : ch3 x (ix3 r q 0) = x (ix3 r q 3) := ch_apply x 3 _ r q
theorem ch4_apply (x : Tile Ideal) (r : Fin 1024) (q : Fin 16) : ch4 x (ix3 r q 0) = x (ix3 r q 4) := ch_apply x 4 _ r q

variable (c : Dev nD) (t : Fin cfg0.N)

/-- The face counter's step adds the tile's face count. -/
theorem stepFace_eq (acc : Vec Ideal S1x1 .f32) (j : S1x1.Idx) :
    stepFace (xTile m c t) (yTile m c t) acc j = acc j + tilePart (faceAt (Y m c)) t.val := by
  unfold stepFace
  rw [add_part, face_part, tilePart_of_lt _ _ (lt338 t)]
  refine congrArg (acc j + ·) (Finset.sum_congr rfl fun r _ => Finset.sum_congr rfl fun q _ => ?_)
  unfold faceAt
  rw [ch0_apply, yTile_apply]

/-- The box accumulator's step adds the tile's masked box error. -/
theorem stepBox_eq (acc : Vec Ideal S1x1 .f32) (j : S1x1.Idx) :
    stepBox (xTile m c t) (yTile m c t) acc j = acc j + tilePart (boxAt (X m c) (Y m c)) t.val := by
  unfold stepBox
  rw [add_part2, box_part, tilePart_of_lt _ _ (lt338 t)]
  refine congrArg (acc j + ·) (Finset.sum_congr rfl fun r _ => Finset.sum_congr rfl fun q _ => ?_)
  unfold boxAt
  rw [ch0_apply (yTile m c t), ch1_apply (xTile m c t), ch1_apply (yTile m c t), ch2_apply (xTile m c t),
    ch2_apply (yTile m c t), ch3_apply (xTile m c t), ch3_apply (yTile m c t), ch4_apply (xTile m c t),
    ch4_apply (yTile m c t)]
  simp only [xTile_apply, yTile_apply]

/-- The cross-entropy accumulator's step adds the tile's masked cross entropy. -/
theorem stepBce_eq (acc : Vec Ideal S1x1 .f32) (j : S1x1.Idx) :
    stepBce (xTile m c t) (yTile m c t) acc j = acc j + tilePart (bceAt (X m c) (Y m c)) t.val := by
  unfold stepBce
  rw [bce_part, tilePart_of_lt _ _ (lt338 t)]
  refine congrArg (acc j + ·) (Finset.sum_congr rfl fun r _ => Finset.sum_congr rfl fun q _ => ?_)
  unfold bceAt
  rw [ch0_apply (yTile m c t), ch0_apply (xTile m c t)]
  simp only [xTile_apply, yTile_apply]

/-- The background accumulator's step adds the tile's background term. -/
theorem stepBg_eq (acc : Vec Ideal S1x1 .f32) (j : S1x1.Idx) :
    stepBg (xTile m c t) (yTile m c t) acc j = acc j + tilePart (bgAt (X m c) (Y m c)) t.val := by
  unfold stepBg
  rw [bg_part, tilePart_of_lt _ _ (lt338 t)]
  refine congrArg (acc j + ·) (Finset.sum_congr rfl fun r _ => Finset.sum_congr rfl fun q _ => ?_)
  unfold bgAt
  rw [ch0_apply (xTile m c t), ch0_apply (yTile m c t)]
  simp only [xTile_apply, yTile_apply]

end Cert.KernelIdeal.Steps

end
-- ==== Proof.KAcc.lean ====
/-
  The accumulators over a row of tiles.

  Grid points 169 q … 169 q + 168 are the row of tiles of core `q`.  At the first of them each accumulator is reset and
  takes its step; at every later one it takes its step from what the point before left.  A step adds the tile's part, so
  after the last point of the row an accumulator holds the sum of the parts of the row's 169 tiles (the reset value is
  zero, and a sum over the extended reals may be grouped freely).  At that point the body also copies the four
  accumulators into the output block.
-/
import proofs.«164891_j38285338476689_1_alg».proof.Proof.Gen.KernelIdeal.Frame
import proofs.«164891_j38285338476689_1_alg».proof.Proof.KPieces
import proofs.«164891_j38285338476689_1_alg».proof.Proof.KSteps

set_option maxRecDepth 16384

noncomputable section

namespace Cert.KernelIdeal.Acc

open Cert.KernelIdeal Cert.KernelIdeal.Gen Cert.KernelIdeal.Pieces Cert.KernelIdeal.Steps Cert.KernelIdeal.Tile Cert.FaceLoss
open Idealize.ShloMosaic Idealize.ShloMosaic.TcCoe Idealize.SL.Sem Idealize.ShloMosaic.ValueIdx
open scoped BigOperators

variable (m : (ℓ : Loc nD τ sig) → Buf (Elt Ideal) ℓ) (c : Dev nD)

/-- At the first point of a row the four accumulators are their steps from the reset values. -/
theorem accs_first (t : Fin cfg0.N) (h0 : t.val % 169 = 0) :
    (outsAt0 m c t.val t.isLt).2
      = (stepFace (xTile m c t) (yTile m c t) (k0_pay9 (F := Ideal)), stepBox (xTile m c t) (yTile m c t) (k0_pay10 (F := Ideal)),
          stepBce (xTile m c t) (yTile m c t) (k0_pay11 (F := Ideal)), stepBg (xTile m c t) (yTile m c t) (k0_pay12 (F := Ideal))) := by
  have h1 : ¬t.val % 169 = 168 := by omega
  rw [outsAt0_A m c t h0 h1]
  dsimp only
  exact congrArg₂ Prod.mk (sA0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) ((hcond0_0 t).mpr h0) (fun h => h1 ((hcond0_1 t).mp h)))
    (congrArg₂ Prod.mk (sA1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) ((hcond0_0 t).mpr h0) (fun h => h1 ((hcond0_1 t).mp h)))
      (congrArg₂ Prod.mk (sA2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) ((hcond0_0 t).mpr h0) (fun h => h1 ((hcond0_1 t).mp h)))
        (sA3 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) ((hcond0_0 t).mpr h0) (fun h => h1 ((hcond0_1 t).mp h)))))

/-- At every later point of a row they are their steps from what the point before left. -/
theorem accs_next (t : Fin cfg0.N) (h0 : ¬t.val % 169 = 0) :
    (outsAt0 m c t.val t.isLt).2
      = (stepFace (xTile m c t) (yTile m c t) (outsAt0 m c (t.val - 1) (Nat.lt_of_le_of_lt (Nat.sub_le _ _) t.isLt)).2.1,
          stepBox (xTile m c t) (yTile m c t) (outsAt0 m c (t.val - 1) (Nat.lt_of_le_of_lt (Nat.sub_le _ _) t.isLt)).2.2.1,
          stepBce (xTile m c t) (yTile m c t) (outsAt0 m c (t.val - 1) (Nat.lt_of_le_of_lt (Nat.sub_le _ _) t.isLt)).2.2.2.1,
          stepBg (xTile m c t) (yTile m c t) (outsAt0 m c (t.val - 1) (Nat.lt_of_le_of_lt (Nat.sub_le _ _) t.isLt)).2.2.2.2) := by
  by_cases h1 : t.val % 169 = 168
  · rw [outsAt0_C m c t h0 h1]
    dsimp only
    exact congrArg₂ Prod.mk (sC0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1))
      (congrArg₂ Prod.mk (sC1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1))
        (congrArg₂ Prod.mk (sC2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1))
          (sC3 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1))))
  · rw [outsAt0_B m c t h0 h1]
    dsimp only
    exact congrArg₂ Prod.mk (sB0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) (fun h => h1 ((hcond0_1 t).mp h)))
      (congrArg₂ Prod.mk (sB1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) (fun h => h1 ((hcond0_1 t).mp h)))
        (congrArg₂ Prod.mk (sB2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) (fun h => h1 ((hcond0_1 t).mp h)))
          (sB3 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) (fun h => h1 ((hcond0_1 t).mp h)))))

/-- At the last point of a row the output block holds, at (0, 0, k), accumulator `k` after its step. -/
theorem out_last (t : Fin cfg0.N) (h1 : t.val % 169 = 168) (y : S1x1x4.Idx) :
    (outsAt0 m c t.val t.isLt).1 y
      = outEntry (xTile m c t) (yTile m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (y 2).val := by
  have h0 : ¬t.val % 169 = 0 := by omega
  rw [outsAt0_C m c t h0 h1]
  dsimp only
  exact outC c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1) y

/-- A quantity that is `0 + P n` at the first point of each row and `(what the point before left) + P n` at every
    later point is, at the row's last point, the sum of `P` over the row. -/
theorem sum_over_row (f : (n : ℕ) → n < cfg0.N → EReal) (P : ℕ → EReal)
    (hfirst : ∀ n (h : n < cfg0.N), n % 169 = 0 → f n h = 0 + P n)
    (hnext : ∀ n (h : n + 1 < cfg0.N), ¬(n + 1) % 169 = 0 → f (n + 1) h = f n (Nat.lt_of_succ_lt h) + P (n + 1))
    (q : ℕ) : ∀ (k : ℕ) (_ : k < 169) (h : 169 * q + k < cfg0.N),
      f (169 * q + k) h = ∑ s ∈ Finset.range (k + 1), P (169 * q + s)
  | 0, _, h => by
    rw [hfirst _ h (by omega), zero_add, Finset.sum_range_one]
  | k + 1, hk, h => by
    have hne : ¬(169 * q + k + 1) % 169 = 0 := by omega
    have e := hnext (169 * q + k) h hne
    rw [sum_over_row f P hfirst hnext q k (by omega) (Nat.lt_of_succ_lt h)] at e
    rw [Finset.sum_range_succ _ (k + 1)]
    exact e

/-- The sum of a per-cell term over the row of tiles of core `q`. -/
def rowSum (f : Fin 2048 → Fin 2704 → EReal) (q : ℕ) : EReal :=
  ∑ s ∈ Finset.range 169, tilePart f (169 * q + s)

/-- The four accumulators after a point. -/
abbrev Accs := Vec Ideal S1x1 .f32 × Vec Ideal S1x1 .f32 × Vec Ideal S1x1 .f32 × Vec Ideal S1x1 .f32

/-- One accumulator (`proj` of the four) whose step adds the tile's part of a term `f`, and which is reset to zero at the
    first point of a row, holds after the row's last point the sum of `f` over the row's tiles. -/
theorem row_total (proj : Accs → Vec Ideal S1x1 .f32) (f : Fin 2048 → Fin 2704 → EReal) (j : S1x1.Idx)
    (hfirst : ∀ t : Fin cfg0.N, t.val % 169 = 0 → proj (outsAt0 m c t.val t.isLt).2 j = 0 + tilePart f t.val)
    (hnext : ∀ t : Fin cfg0.N, ¬t.val % 169 = 0 →
      proj (outsAt0 m c t.val t.isLt).2 j
        = proj (outsAt0 m c (t.val - 1) (Nat.lt_of_le_of_lt (Nat.sub_le _ _) t.isLt)).2 j + tilePart f t.val)
    (t : Fin cfg0.N) (h1 : t.val % 169 = 168) :
    proj (outsAt0 m c t.val t.isLt).2 j = rowSum f (t.val / 169) := by
  have hN : cfg0.N = 338 := N_0
  have hb : 169 * (t.val / 169) + 168 < cfg0.N := by have := t.isLt; omega
  have same : ∀ (u : ℕ) (hu : u < cfg0.N), u = t.val →
      proj (outsAt0 m c u hu).2 j = proj (outsAt0 m c t.val t.isLt).2 j := fun u hu e => by subst e; rfl
  rw [← same _ hb (by omega)]
  exact sum_over_row (fun n h => proj (outsAt0 m c n h).2 j) (tilePart f)
    (fun n h h0 => hfirst ⟨n, h⟩ h0) (fun n h hne => hnext ⟨n + 1, h⟩ hne) (t.val / 169) 168 (by decide) hb

variable (t : Fin cfg0.N)

/-- After the last point of a row: the face counter holds the row's face count, -/
theorem face_row (h1 : t.val % 169 = 168) (j : S1x1.Idx) :
    (outsAt0 m c t.val t.isLt).2.1 j = rowSum (faceAt (Y m c)) (t.val / 169) :=
  row_total m c (fun p => p.1) _ j
    (fun t h0 => by
      refine (congrArg (fun p : Accs => p.1 j) (accs_first m c t h0)).trans ?_
      show stepFace (xTile m c t) (yTile m c t) (k0_pay9 (F := Ideal)) j = _
      rw [stepFace_eq, (reset_val j).1])
    (fun t hne => by
      refine (congrArg (fun p : Accs => p.1 j) (accs_next m c t hne)).trans ?_
      show stepFace (xTile m c t) (yTile m c t) (outsAt0 m c (t.val - 1) (Nat.lt_of_le_of_lt (Nat.sub_le _ _) t.isLt)).2.1 j = _
      rw [stepFace_eq])
    t h1

/-- the box accumulator the row's masked box error, -/
theorem box_row (h1 : t.val % 169 = 168) (j : S1x1.Idx) :
    (outsAt0 m c t.val t.isLt).2.2.1 j = rowSum (boxAt (X m c) (Y m c)) (t.val / 169) :=
  row_total m c (fun p => p.2.1) _ j
    (fun t h0 => by
      refine (congrArg (fun p : Accs => p.2.1 j) (accs_first m c t h0)).trans ?_
      show stepBox (xTile m c t) (yTile m c t) (k0_pay10 (F := Ideal)) j = _
      rw [stepBox_eq, (reset_val j).2.1])
    (fun t hne => by
      refine (congrArg (fun p : Accs => p.2.1 j) (accs_next m c t hne)).trans ?_
      show stepBox (xTile m c t) (yTile m c t) (outsAt0 m c (t.val - 1) (Nat.lt_of_le_of_lt (Nat.sub_le _ _) t.isLt)).2.2.1 j = _
      rw [stepBox_eq])
    t h1

/-- the cross-entropy accumulator the row's masked cross entropy, -/
theorem bce_row (h1 : t.val % 169 = 168) (j : S1x1.Idx) :
    (outsAt0 m c t.val t.isLt).2.2.2.1 j = rowSum (bceAt (X m c) (Y m c)) (t.val / 169) :=
  row_total m c (fun p => p.2.2.1) _ j
    (fun t h0 => by
      refine (congrArg (fun p : Accs => p.2.2.1 j) (accs_first m c t h0)).trans ?_
      show stepBce (xTile m c t) (yTile m c t) (k0_pay11 (F := Ideal)) j = _
      rw [stepBce_eq, (reset_val j).2.2.1])
    (fun t hne => by
      refine (congrArg (fun p : Accs => p.2.2.1 j) (accs_next m c t hne)).trans ?_
      show stepBce (xTile m c t) (yTile m c t) (outsAt0 m c (t.val - 1) (Nat.lt_of_le_of_lt (Nat.sub_le _ _) t.isLt)).2.2.2.1 j = _
      rw [stepBce_eq])
    t h1

/-- and the background accumulator the row's background term. -/
theorem bg_row (h1 : t.val % 169 = 168) (j : S1x1.Idx) :
    (outsAt0 m c t.val t.isLt).2.2.2.2 j = rowSum (bgAt (X m c) (Y m c)) (t.val / 169) :=
  row_total m c (fun p => p.2.2.2) _ j
    (fun t h0 => by
      refine (congrArg (fun p : Accs => p.2.2.2 j) (accs_first m c t h0)).trans ?_
      show stepBg (xTile m c t) (yTile m c t) (k0_pay12 (F := Ideal)) j = _
      rw [stepBg_eq, (reset_val j).2.2.2])
    (fun t hne => by
      refine (congrArg (fun p : Accs => p.2.2.2 j) (accs_next m c t hne)).trans ?_
      show stepBg (xTile m c t) (yTile m c t) (outsAt0 m c (t.val - 1) (Nat.lt_of_le_of_lt (Nat.sub_le _ _) t.isLt)).2.2.2.2 j = _
      rw [stepBg_eq])
    t h1

/-- Entry `k` of the 2 × 1 × 4 array of per-core totals, for core `q`. -/
def rowEntry (q : ℕ) : ℕ → EReal
  | 0 => rowSum (faceAt (Y m c)) q
  | 1 => rowSum (boxAt (X m c) (Y m c)) q
  | 2 => rowSum (bceAt (X m c) (Y m c)) q
  | _ => rowSum (bgAt (X m c) (Y m c)) q

/-- What the last point of a row leaves in the output block: the row's four totals. -/
theorem out_row (h1 : t.val % 169 = 168) (y : S1x1x4.Idx) :
    (outsAt0 m c t.val t.isLt).1 y = rowEntry m c (t.val / 169) (y 2).val := by
  have h0 : ¬t.val % 169 = 0 := by omega
  rw [out_last m c t h1 y]
  have e := accs_next m c t h0
  have e0 := congrArg (fun p : Accs => p.1 j0) e
  have e1 := congrArg (fun p : Accs => p.2.1 j0) e
  have e2 := congrArg (fun p : Accs => p.2.2.1 j0) e
  have e3 := congrArg (fun p : Accs => p.2.2.2 j0) e
  generalize (y 2).val = k
  match k with
  | 0 => exact e0.symm.trans (face_row m c t h1 j0)
  | 1 => exact e1.symm.trans (box_row m c t h1 j0)
  | 2 => exact e2.symm.trans (bce_row m c t h1 j0)
  | _ + 3 => exact e3.symm.trans (bg_row m c t h1 j0)

end Cert.KernelIdeal.Acc

end
-- ==== Proof.KOut.lean ====
/-
  The array the kernel leaves: per core, the four totals over the core's row of tiles.

  The output window's block is (core, 0, 0) of a 2 × 1 × 4 array and is written back only after the last point of a
  core's row of tiles, when it holds the row's four totals.  The two write-backs cover the array, so after the run
  entry (q, 0, k) is total `k` of core `q`'s row.
-/
import proofs.«164891_j38285338476689_1_alg».proof.Proof.Gen.KernelIdeal.Frame
import proofs.«164891_j38285338476689_1_alg».proof.Proof.KAcc
import Idealize.ShloMosaic.Lib.Pipeline.Value

set_option maxRecDepth 16384

noncomputable section

namespace Cert.KernelIdeal.Out

open Cert.KernelIdeal Cert.KernelIdeal.Gen Cert.KernelIdeal.Acc Cert.KernelIdeal.Steps Cert.FaceLoss
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- The per-core totals as an array: core `q`'s total `k` at (q, 0, k). -/
def perCore : FVec Ideal S2x1x4 .f32 := fun i => rowEntry m c (i 0).val (i 2).val

/-- Where the output window's block sits at point `t`: block (t / 169, 0, 0). -/
theorem index2 : ∀ t : Fin cfg0.N, win0_2.index t 0 = t.val / 169 ∧ win0_2.index t 1 = 0 ∧ win0_2.index t 2 = 0 :=
  (by decide +kernel : ∀ t : Fin grid0.N, _)

/-- What a write-back writes is the block of `perCore` it names. -/
theorem flushed_eq (t : Fin cfg0.N) (hf : (cfg0.win 2).flush t = true) :
    (dats m 0 c).flushed 2 t = ((cfg0.win 2).blk t).view.read (Elt Ideal) (perCore m c) := by
  have h1 : t.val % 169 = 168 := (flush0_2 t).mp hf
  show (cfg0.win 2).cut (grid0.coords t) ((dats m 0 c).after 2 t) = _
  rw [after0_2]
  funext y
  show (outsAt0 m c t.val t.isLt).1 y = perCore m c (((cfg0.win 2).blk t).view.emb y)
  rw [out_row m c t h1 y]
  unfold perCore
  obtain ⟨e0, -, e2⟩ := index2 t
  have hy0 : (y 0).val < 1 := (y 0).isLt
  have c0 : ((((cfg0.win 2).blk t).view.emb y) 0).val = t.val / 169 := by
    show win0_2.index t 0 * 1 + 1 * (y 0).val = _
    rw [e0]; omega
  have c2 : ((((cfg0.win 2).blk t).view.emb y) 2).val = (y 2).val := by
    show win0_2.index t 2 * 4 + 1 * (y 2).val = _
    rw [e2]; omega
  rw [c0, c2]

/-- Every entry of the array is in the block some write-back writes: core `q`'s at point 169 q + 168. -/
theorem cover (i : S2x1x4.Idx) :
    ∃ t : Fin cfg0.N, (cfg0.win 2).flush t = true ∧ i ∈ ((cfg0.win 2).blk t).view.set := by
  have hN : cfg0.N = 338 := N_0
  have hi0 : (i 0).val < 2 := (i 0).isLt
  have hi1 : (i 1).val < 1 := (i 1).isLt
  have hi2 : (i 2).val < 4 := (i 2).isLt
  have hb : 169 * (i 0).val + 168 < cfg0.N := by omega
  refine ⟨⟨169 * (i 0).val + 168, hb⟩, (flush0_2 _).mpr (by show (169 * (i 0).val + 168) % 169 = 168; omega), ?_⟩
  show i ∈ ((View.whole main_v0).slice (win0_2.rect ⟨169 * (i 0).val + 168, hb⟩)).set
  rw [View.set_slice_whole, Rect.mem_set_unit]
  obtain ⟨e0, e1, e2⟩ := index2 ⟨169 * (i 0).val + 168, hb⟩
  have tv : (⟨169 * (i 0).val + 168, hb⟩ : Fin cfg0.N).val = 169 * (i 0).val + 168 := rfl
  intro a
  match a with
  | ⟨0, _⟩ =>
    show win0_2.index ⟨169 * (i 0).val + 168, hb⟩ 0 * 1 ≤ (i 0).val
      ∧ (i 0).val < win0_2.index ⟨169 * (i 0).val + 168, hb⟩ 0 * 1 + 1
    rw [e0, tv]; omega
  | ⟨1, _⟩ =>
    show win0_2.index ⟨169 * (i 0).val + 168, hb⟩ 1 * 1 ≤ (i 1).val
      ∧ (i 1).val < win0_2.index ⟨169 * (i 0).val + 168, hb⟩ 1 * 1 + 1
    rw [e1]; omega
  | ⟨2, _⟩ =>
    show win0_2.index ⟨169 * (i 0).val + 168, hb⟩ 2 * 4 ≤ (i 2).val
      ∧ (i 2).val < win0_2.index ⟨169 * (i 0).val + 168, hb⟩ 2 * 4 + 4
    rw [e2]; omega

/-- So after the run the array holds the per-core totals. -/
theorem final : (dats m 0 c).arrAt 2 cfg0.N = perCore m c :=
  (dats m 0 c).arrAt_eq_of_cover 2 (perCore m c) (flushed_eq m c) cover

end Cert.KernelIdeal.Out

end
-- ==== Proof.KTailDefs.lean ====
/-
  The scalar arithmetic after the kernel: from the 2 × 1 × 4 array of per-core totals to the loss.

  The host sums the array over its first two axes (the two cores), takes the four entries of the result apart, forms the
  number of cells that are not faces as the cell count less the face count, and applies the loss's last operations.
-/
import proofs.«164891_j38285338476689_1_alg».proof.Proof.Gen.KernelIdeal
import proofs.«164891_j38285338476689_1_alg».proof.Proof.Cells

noncomputable section

namespace Cert.KernelIdeal.Tail

open Cert.KernelIdeal Cert.KernelIdeal.Gen Cert.FaceLoss
open Idealize.ShloMosaic

/-- The four totals over the cores, as the host's reduction leaves them. -/
def coreTotals (O : FVec Ideal S2x1x4 .f32) : FVec Ideal S4 .f32 :=
  Host.reduceAdd (F := Ideal) O (constant (F := Ideal) S_ .f32 0x00000000#32) reducesTo_S2x1x4_S4_d0_1 h_S_

/-- Entry 0 of the totals as a scalar: the face count. -/
def pick0 (O : FVec Ideal S2x1x4 .f32) : FVec Ideal S_ .f32 :=
  shapeCast S_ (extractStridedSlice S1 ![0] (coreTotals O) slices_S4_S1_0) shapeCasts_S1_S_
/-- Entry 1: the masked box error. -/
def pick1 (O : FVec Ideal S2x1x4 .f32) : FVec Ideal S_ .f32 :=
  shapeCast S_ (extractStridedSlice S1 ![1] (coreTotals O) slices_S4_S1_1) shapeCasts_S1_S_
/-- Entry 2: the masked cross entropy. -/
def pick2 (O : FVec Ideal S2x1x4 .f32) : FVec Ideal S_ .f32 :=
  shapeCast S_ (extractStridedSlice S1 ![2] (coreTotals O) slices_S4_S1_2) shapeCasts_S1_S_
/-- Entry 3: the background term. -/
def pick3 (O : FVec Ideal S2x1x4 .f32) : FVec Ideal S_ .f32 :=
  shapeCast S_ (extractStridedSlice S1 ![3] (coreTotals O) slices_S4_S1_3) shapeCasts_S1_S_

/-- The host's operations after the kernel, applied to the array the kernel leaves. -/
def tailOf (O : FVec Ideal S2x1x4 .f32) : FVec Ideal S_ .f32 :=
  lossOf (pick0 O) (pick1 O) (pick2 O) (pick3 O)
    (subf (constant (F := Ideal) S_ .f32 0x4AA90000#32) (pick0 O))

end Cert.KernelIdeal.Tail

end
-- ==== Proof.KTailValue.lean ====
/-
  The per-core totals, summed over the cores, and the loss from them.

  The kernel leaves a 2 × 1 × 4 array: entry (a, 0, j) is core a's share of total j.  The host reduces it over its first
  two axes from zero, so entry j of the result is zero plus the sum of the entries that drop to j; those are exactly
  (0, 0, j) and (1, 0, j), the middle axis having one coordinate only.  The slice [j : j + 1] followed by the reshape to
  rank 0 picks entry j: both the rank-1 shape of one element and the rank-0 shape have a single row-major position.
  The operations that follow are those of the loss, with the count of the cells that are not faces formed as the cell
  count less the face count.
-/
import proofs.«164891_j38285338476689_1_alg».proof.Proof.KTailDefs
import Idealize.ShloMosaic.Lib.ValueIdx
import Idealize.ShloMosaic.Lib.Pipeline.Value
import Idealize.ShloMosaic.PureOps.Ideal
import Idealize.ShloMosaic.PureOps.Ideal.Laws

noncomputable section

namespace Cert.KernelIdeal.Tail

open Cert.KernelIdeal Cert.KernelIdeal.Gen Cert.FaceLoss
open Idealize.ShloMosaic Idealize.ShloMosaic.ValueIdx
open scoped BigOperators

/-- Total j over the two cores. -/
def colSum (O : FVec Ideal S2x1x4 .f32) (j : Fin 4) : EReal := O (ix3 0 0 j) + O (ix3 1 0 j)

/-! ## The reduction over the cores -/

/-- Dropping the first two axes of (a, 0, j) leaves j; -/
theorem drop_core (a : Fin 2) (j : Fin 4) : reducesTo_S2x1x4_S4_d0_1.drop (ix3 a 0 j) = ix1 j := by
  funext b
  match b with
  | ⟨0, _⟩ => rfl

/-- and an index that drops to j is (its first coordinate, 0, j), the middle axis having the one coordinate 0; -/
theorem eq_core_of_drop (i : S2x1x4.Idx) (j : Fin 4) (h : reducesTo_S2x1x4_S4_d0_1.drop i = ix1 j) :
    i = ix3 (i 0) 0 j := by
  have h2 : (i 2).val = j.val := congrArg Fin.val (congrFun h 0)
  funext a
  match a with
  | ⟨0, _⟩ => rfl
  | ⟨1, _⟩ => exact Fin.ext (by have h1 : (i 1).val < 1 := (i 1).isLt; show (i 1).val = 0; omega)
  | ⟨2, _⟩ => exact Fin.ext h2

/-- so the indices summed at j are the two (a, 0, j). -/
def coreEmb (j : Fin 4) : Fin 2 ↪ S2x1x4.Idx :=
  ⟨fun a => ix3 a 0 j, fun a a' h => by have := congrFun h 0; exact this⟩

theorem filter_core (j : Fin 4) :
    Finset.univ.filter (fun i : S2x1x4.Idx => reducesTo_S2x1x4_S4_d0_1.drop i = ix1 j) = Finset.univ.map (coreEmb j) := by
  ext i
  simp only [Finset.mem_filter, Finset.mem_univ, true_and, Finset.mem_map, coreEmb, Function.Embedding.coeFn_mk]
  exact ⟨fun h => ⟨i 0, (eq_core_of_drop i j h).symm⟩, fun ⟨a, ha⟩ => ha ▸ drop_core a j⟩

/-- Entry j of the host's reduction: zero plus the two cores' entries. -/
theorem coreTotals_apply (O : FVec Ideal S2x1x4 .f32) (j : Fin 4) : coreTotals O (ix1 j) = colSum O j := by
  unfold coreTotals Host.reduceAdd
  simp only [Ideal.hostReduceAdd_def]
  unfold Ideal.hostReduceAdd
  rw [filter_core, Finset.sum_map, Fin.sum_univ_two, constant_apply, Ideal.ofBits_zero_f32, zero_add]
  rfl

/-! ## Taking the entries apart -/

/-- The slice [j : j + 1] of a vector of four, reshaped to a scalar, is entry j. -/
theorem slice_entry (T : FVec Ideal S4 .f32) (j : Fin 4) (h : S4.Slices ![j.val] S1) (i : S_.Idx) :
    shapeCast S_ (extractStridedSlice S1 ![j.val] T h) shapeCasts_S1_S_ i = T (ix1 j) := by
  rw [shapeCast_apply _ shapeCasts_S1_S_ i (ix1 0) (by
    have h1 := (S1.rowMajor (ix1 0)).isLt
    have h0 := (S_.rowMajor i).isLt
    have e1 : S1.numel = 1 := by decide
    have e0 : S_.numel = 1 := by decide
    omega)]
  exact extractStridedSlice_apply ![j.val] T h (ix1 0) (ix1 j) (fun a => match a with
    | ⟨0, _⟩ => by show j.val = j.val + 0; rfl)

theorem pick0_eq (O : FVec Ideal S2x1x4 .f32) : pick0 O = splat (colSum O 0) := by
  funext i
  exact (slice_entry (coreTotals O) 0 slices_S4_S1_0 i).trans (coreTotals_apply O 0)

theorem pick1_eq (O : FVec Ideal S2x1x4 .f32) : pick1 O = splat (colSum O 1) := by
  funext i
  exact (slice_entry (coreTotals O) 1 slices_S4_S1_1 i).trans (coreTotals_apply O 1)

theorem pick2_eq (O : FVec Ideal S2x1x4 .f32) : pick2 O = splat (colSum O 2) := by
  funext i
  exact (slice_entry (coreTotals O) 2 slices_S4_S1_2 i).trans (coreTotals_apply O 2)

theorem pick3_eq (O : FVec Ideal S2x1x4 .f32) : pick3 O = splat (colSum O 3) := by
  funext i
  exact (slice_entry (coreTotals O) 3 slices_S4_S1_3 i).trans (coreTotals_apply O 3)

/-! ## The loss from the totals -/

/-- The host's tail is the loss at the four totals over the cores and the cell count less the face count. -/
theorem tailOf_eq (O : FVec Ideal S2x1x4 .f32) :
    tailOf O = lossOf (splat (colSum O 0)) (splat (colSum O 1)) (splat (colSum O 2)) (splat (colSum O 3))
      (splat (Ideal.ofBits .f32 0x4AA90000#32 - colSum O 0)) := by
  unfold tailOf
  rw [pick0_eq, pick1_eq, pick2_eq, pick3_eq]
  rfl

end Cert.KernelIdeal.Tail

end
-- ==== Proof.TilesTotal.lean ====
/-
  The total over the grid, tile by tile.

  The grid of 2048 × 2704 cells is cut into 2 × 169 tiles of 1024 × 16 cells.  Grid point n = 169 a + s (a < 2,
  s < 169) works on tile (a, s): its rows are 1024 a … 1024 a + 1023 and its columns 16 s … 16 s + 15, because
  (169 a + s) / 169 = a and (169 a + s) % 169 = s.  A finite sum in a commutative monoid may be grouped at will, so
  the total of a per-cell term is the sum over a and s of the tile parts.
-/
import proofs.«164891_j38285338476689_1_alg».proof.Proof.Tiles

noncomputable section

namespace Cert.FaceLoss

open scoped BigOperators

/-- Row r of the tile of point 169 a + s is row r of the a-th block of 1024 rows. -/
theorem rowOf_tile (a : Fin 2) (s : Fin 169) (h : 169 * a.val + s.val < 338) (r : Fin 1024) :
    rowOf (169 * a.val + s.val) h r = tileIdx (show 2048 = 2 * 1024 from rfl) a r := by
  refine Fin.ext ?_
  rw [tileIdx_val]
  show 1024 * ((169 * a.val + s.val) / 169) + r.val = r.val + 1024 * a.val
  have := s.isLt
  omega

/-- Column q of the tile of point 169 a + s is column q of the s-th block of 16 columns. -/
theorem colOf_tile (a : Fin 2) (s : Fin 169) (h : 169 * a.val + s.val < 338) (q : Fin 16) :
    colOf (169 * a.val + s.val) h q = tileIdx (show 2704 = 169 * 16 from rfl) s q := by
  refine Fin.ext ?_
  rw [tileIdx_val]
  show 16 * ((169 * a.val + s.val) % 169) + q.val = q.val + 16 * s.val
  have := s.isLt
  omega

/-- The total of a per-cell term is the sum of its tile parts over the 2 · 169 grid points. -/
theorem total_tiles (f : Fin 2048 → Fin 2704 → EReal) :
    total f = ∑ a : Fin 2, ∑ s ∈ Finset.range 169, tilePart f (169 * a.val + s) := by
  unfold total
  rw [sum_grid_tiles (show 2048 = 2 * 1024 from rfl) (show 2704 = 169 * 16 from rfl) f]
  refine Finset.sum_congr rfl fun a _ => ?_
  rw [Finset.sum_range]
  refine Finset.sum_congr rfl fun s _ => ?_
  have h : 169 * a.val + s.val < 338 := by have := a.isLt; have := s.isLt; omega
  rw [tilePart_of_lt f _ h]
  refine Finset.sum_congr rfl fun r _ => Finset.sum_congr rfl fun q _ => ?_
  rw [rowOf_tile a s h r, colOf_tile a s h q]

end Cert.FaceLoss

end
-- ==== Proof.KRun.lean ====
/-
  The kernel's program computes the loss.

  After the kernel the array of per-core totals holds, for each of the two cores, the four totals over the core's row of
  tiles; the host adds the two cores' entries, and the two rows of tiles together are the whole grid, so the four sums are
  the grid's totals.  The count of the cells that are not faces is formed as the number of cells less the face count,
  which is that total because every mask value is the real 0 or 1.  The last operations are the loss's.
-/
import proofs.«164891_j38285338476689_1_alg».proof.Proof.Gen.KernelIdeal.Frame
import proofs.«164891_j38285338476689_1_alg».proof.Proof.KOut
import proofs.«164891_j38285338476689_1_alg».proof.Proof.KTailValue
import proofs.«164891_j38285338476689_1_alg».proof.Proof.TilesTotal
import Idealize.ShloMosaic.Lib.StableHlo.Run
import Idealize.ShloMosaic.Lib.Pipeline.Value

set_option maxRecDepth 16384

noncomputable section

namespace Cert.KernelIdeal.RunValue

open Cert.KernelIdeal Cert.KernelIdeal.Gen Cert.KernelIdeal.Acc Cert.KernelIdeal.Steps Cert.KernelIdeal.Out
  Cert.KernelIdeal.Tail Cert.FaceLoss
open Idealize.ShloMosaic Idealize.ShloMosaic.TcCoe Idealize.SL.Sem Idealize.ShloMosaic.StableHlo Idealize.ShloMosaic.ValueIdx
open Idealize.ShloMosaic.Pipeline (Dat)
open scoped BigOperators

/-- The grid's total of a term is the sum of the two cores' row totals. -/
theorem total_rows (f : Fin 2048 → Fin 2704 → EReal) : total f = rowSum f 0 + rowSum f 1 := by
  rw [total_tiles, Fin.sum_univ_two]
  rfl

set_option maxHeartbeats 2000000 in
/-- The host's operations after the kernel, from any contents of the buffers: the result is `tailOf` of the array of
    per-core totals. -/
theorem tail_of_valuation (W : Valuation τ sig (Elt Ideal)) :
    StableHlo.after (hostOps1 (F := Ideal)) W (Proc.devRef .tc main_v21) = tailOf (W (Proc.devRef .tc main_v0)) := by
  after_results
  rfl

variable (m : (ℓ : Loc nD τ sig) → Buf (Elt Ideal) ℓ) (ρ : Dev nD → PrngReg)

/-- The host's result after the run is the loss's last operations on the per-core totals. -/
theorem tail_value (c : Dev nD) :
    Pipeline.afterTail₀ cfgs (dats m) 0 (V0 m) [hostOps1] c main_v21 = tailOf (perCore m c) := by
  unfold Pipeline.afterTail₀
  rw [List.flatten_cons, List.flatten_nil, List.append_nil, tail_of_valuation]
  exact congrArg tailOf ((Pipeline.withArrays_arr spec0 launch0.win.arr_inj c _ _ 2).trans (final m c))

/-- And that is the loss of the two argument arrays. -/
theorem tail_loss (c : Dev nD) : tailOf (perCore m c) = loss (X m c) (Y m c) := by
  rw [tailOf_eq]
  unfold loss
  rw [rest_total, total_rows (faceAt (Y m c)), total_rows (boxAt (X m c) (Y m c)), total_rows (bceAt (X m c) (Y m c)),
    total_rows (bgAt (X m c) (Y m c))]
  rfl

/-- The run, read: every weakly fair execution ends with the result at the loss of the argument arrays, which are
    unchanged. -/
theorem run : θ_run defs (onTc (τ := τ) (main (F := Ideal))) ⟨m, fun _ => 0, ρ⟩ fun r => ∀ c : Dev nD,
      r.2.mem ((c.tc : Thread nD τ).loc main_v21) = loss (X m c) (Y m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v21 (Pipeline.mem_restRefs_of main_v21 (by decide) (fun w => by fin_cases w <;> decide))).trans
        ((tail_value m c).trans (tail_loss m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.RefLoss.lean ====
/-
  The reference program's value is the loss of Proof/Cells.lean.

  The reference computes five sums over the grid of 2048 × 2704 cells and combines them by a handful of scalar
  operations.  Each sum is read as "zero plus the sum over every cell"; the sum over the rank-2 index set is the double
  sum over the two coordinates; and at the cell (b, c) each summand, read back operation by operation to the two
  inputs, is the per-cell term of Cells.lean:

    the mask                           faceAt Y b c
    mask · box error                   boxAt X Y b c      (the box error: zero plus the four squared differences)
    mask · cross entropy               bceAt X Y b c
    (1 − mask) · (−log1mC)             bgAt X Y b c
    1 − mask                           restAt Y b c

  The slice of channel 0 followed by the reshape that drops the unit axis reads the input at (b, c, 0), because
  (b · 2704 + c) / 2704 = b and (b · 2704 + c) % 2704 = c for c < 2704; the slice of channels 1–4 read at (b, c, k)
  reads the input at (b, c, 1 + k).  The last operations are those of lossOf, one for one.
-/
import proofs.«164891_j38285338476689_1_alg».proof.Proof.Cells
import proofs.«164891_j38285338476689_1_alg».proof.Proof.Gen.ReferenceIdeal.Read
import Idealize.ShloMosaic.Lib.ValueIdx
import Idealize.ShloMosaic.PureOps.Ideal
import Idealize.ShloMosaic.PureOps.Ideal.Laws

noncomputable section

namespace Cert.ReferenceIdeal.RefValue

open Cert.ReferenceIdeal Cert.ReferenceIdeal.Gen Cert.ReferenceIdeal.Read Cert.FaceLoss
open Idealize.ShloMosaic Idealize.ShloMosaic.ValueIdx
open scoped BigOperators

/-- An input of the reference: a grid of 2048 × 2704 cells with five channels, over the extended reals. -/
abbrev Input : Type := (⟨S2048x2704x5, .f32⟩ : BufTy).Contents (Elt Ideal)

/-! ## Indices -/

/-- Channel 0 of the cell (b, c): dropping the unit axis and then slicing channel 0 lands on (b, c, 0). -/
theorem idx_channel0 (b : Fin 2048) (c : Fin 2704) : idx_main_v0 (idx_main_v1 (ix2 b c)) = ix3 b c 0 := by
  funext a
  match a with
  | ⟨0, _⟩ => exact Fin.ext (by show (b.val * 2704 + c.val) / 2704 = b.val; have := c.isLt; omega)
  | ⟨1, _⟩ => exact Fin.ext (by show (b.val * 2704 + c.val) / 1 % 2704 = c.val; have := c.isLt; omega)
  | ⟨2, _⟩ => rfl

/-- Channel 1 + k of the cell (b, c): the k-th summand of the box error reads the inputs at (b, c, 1 + k). -/
theorem idx_coord (b : Fin 2048) (c : Fin 2704) (k : Fin 4) :
    idx_main_v9 (idx_main_v13 (ix2 b c) k) = ix3 b c ⟨1 + k.val, by omega⟩ := by
  funext a
  match a with
  | ⟨0, _⟩ => rfl
  | ⟨1, _⟩ => rfl
  | ⟨2, _⟩ => rfl

/-! ## The confidence and target channels at a cell -/

/-- The target of the cell (b, c), as the mask reads it. -/
theorem target_cell (x1 : Input) (b : Fin 2048) (c : Fin 2704) :
    val_main_v1 (F := Ideal) x1 (ix2 b c) = x1 (ix3 b c 0) := by
  rw [val_main_v1_apply, val_main_v0_apply, idx_channel0]

/-- The confidence of the cell (b, c). -/
theorem conf_cell (x0 : Input) (b : Fin 2048) (c : Fin 2704) :
    val_main_v19 (F := Ideal) x0 (ix2 b c) = x0 (ix3 b c 0) :=
  (val_main_v19_apply x0 (ix2 b c)).trans ((val_main_v18_apply x0 _).trans (congrArg x0 (idx_channel0 b c)))

/-- The target of the cell (b, c), as the cross entropy reads it. -/
theorem target_cell_entropy (x1 : Input) (b : Fin 2048) (c : Fin 2704) :
    val_main_v21 (F := Ideal) x1 (ix2 b c) = x1 (ix3 b c 0) :=
  (val_main_v21_apply x1 (ix2 b c)).trans ((val_main_v20_apply x1 _).trans (congrArg x1 (idx_channel0 b c)))

/-! ## The five summands at a cell -/

/-- The mask of the cell: the comparison of the target with one half, as a real. -/
theorem face_cell (x1 : Input) (b : Fin 2048) (c : Fin 2704) :
    val_main_v4 (F := Ideal) x1 (ix2 b c) = faceAt x1 b c := by
  rw [val_main_v4_apply, val_main_v3_apply, val_main_v2_apply, val_main_cst_apply, target_cell]
  rfl

/-- One minus the mask. -/
theorem rest_cell (x1 : Input) (b : Fin 2048) (c : Fin 2704) :
    val_main_v7 (F := Ideal) x1 (ix2 b c) = restAt x1 b c := by
  rw [val_main_v7_apply, val_main_v6_apply, val_main_cst_1_apply, face_cell]
  rfl

/-- The k-th squared coordinate difference of the cell. -/
theorem sq_cell (x0 x1 : Input) (b : Fin 2048) (c : Fin 2704) (k : Fin 4) :
    val_main_v12 (F := Ideal) x0 x1 (idx_main_v13 (ix2 b c) k)
      = sqDiff (x0 (ix3 b c ⟨1 + k.val, by omega⟩)) (x1 (ix3 b c ⟨1 + k.val, by omega⟩)) := by
  rw [val_main_v12_apply, val_main_v11_apply, val_main_v9_apply, val_main_v10_apply]
  exact congrArg (fun j => sqDiff (x0 j) (x1 j)) (idx_coord b c k)

/-- The box error of the cell: zero plus the four squared differences, first to last. -/
theorem box_cell (x0 x1 : Input) (b : Fin 2048) (c : Fin 2704) :
    val_main_v13 (F := Ideal) x0 x1 (ix2 b c)
      = box (x0 (ix3 b c 1)) (x1 (ix3 b c 1)) (x0 (ix3 b c 2)) (x1 (ix3 b c 2))
          (x0 (ix3 b c 3)) (x1 (ix3 b c 3)) (x0 (ix3 b c 4)) (x1 (ix3 b c 4)) := by
  rw [val_main_v13_apply, val_main_cst_3_apply, Ideal.ofBits_def, Ideal.ofBits_zero_f32, zero_add,
    Fin.sum_univ_four, sq_cell, sq_cell, sq_cell, sq_cell]
  rfl

/-- The masked box error of the cell. -/
theorem maskedBox_cell (x0 x1 : Input) (b : Fin 2048) (c : Fin 2704) :
    val_main_v14 (F := Ideal) x0 x1 (ix2 b c) = boxAt x0 x1 b c := by
  rw [val_main_v14_apply, face_cell, box_cell]
  rfl

/-- The clamped logarithm of the confidence. -/
theorem logC_cell (x0 : Input) (b : Fin 2048) (c : Fin 2704) :
    val_main_v24 (F := Ideal) x0 (ix2 b c) = logC (x0 (ix3 b c 0)) := by
  rw [val_main_v24_apply, val_main_v22_apply, val_main_v23_apply, val_main_cst_6_apply, conf_cell]
  rfl

/-- The clamped logarithm of one minus the confidence. -/
theorem log1mC_cell (x0 : Input) (b : Fin 2048) (c : Fin 2704) :
    val_main_v28 (F := Ideal) x0 (ix2 b c) = log1mC (x0 (ix3 b c 0)) := by
  rw [val_main_v28_apply, val_main_v26_apply, val_main_v25_apply, val_main_v27_apply, val_main_cst_7_apply, conf_cell]
  rfl

/-- The cross entropy of the cell. -/
theorem bce_cell (x0 x1 : Input) (b : Fin 2048) (c : Fin 2704) :
    val_main_v34 (F := Ideal) x0 x1 (ix2 b c) = bce (x0 (ix3 b c 0)) (x1 (ix3 b c 0)) := by
  rw [val_main_v34_apply, val_main_v33_apply, val_main_v29_apply, val_main_v32_apply, val_main_v31_apply,
    val_main_v30_apply, val_main_cst_8_apply, target_cell_entropy, logC_cell, log1mC_cell]
  rfl

/-- The masked cross entropy of the cell. -/
theorem maskedBce_cell (x0 x1 : Input) (b : Fin 2048) (c : Fin 2704) :
    val_main_v35 (F := Ideal) x0 x1 (ix2 b c) = bceAt x0 x1 b c := by
  rw [val_main_v35_apply, face_cell, bce_cell]
  rfl

/-- The background term of the cell. -/
theorem bg_cell (x0 x1 : Input) (b : Fin 2048) (c : Fin 2704) :
    val_main_v41 (F := Ideal) x0 x1 (ix2 b c) = bgAt x0 x1 b c := by
  rw [val_main_v41_apply, val_main_v39_apply, val_main_v38_apply, val_main_cst_10_apply, val_main_v40_apply,
    face_cell, log1mC_cell]
  rfl

/-! ## The five totals -/

/-- The number of face cells. -/
theorem face_total (x1 : Input) : val_main_v5 (F := Ideal) x1 = splat (total (faceAt x1)) := by
  funext i
  rw [val_main_v5_apply, val_main_cst_0_apply, Ideal.ofBits_def, Ideal.ofBits_zero_f32, zero_add, sum_idx2]
  exact Finset.sum_congr rfl fun b _ => Finset.sum_congr rfl fun c _ => face_cell x1 b c

/-- The number of cells that are not faces. -/
theorem nonface_total (x1 : Input) : val_main_v8 (F := Ideal) x1 = splat (total (restAt x1)) := by
  funext i
  rw [val_main_v8_apply, val_main_cst_2_apply, Ideal.ofBits_def, Ideal.ofBits_zero_f32, zero_add, sum_idx2]
  exact Finset.sum_congr rfl fun b _ => Finset.sum_congr rfl fun c _ => rest_cell x1 b c

/-- The total masked box error. -/
theorem box_total (x0 x1 : Input) : val_main_v15 (F := Ideal) x0 x1 = splat (total (boxAt x0 x1)) := by
  funext i
  rw [val_main_v15_apply, val_main_cst_4_apply, Ideal.ofBits_def, Ideal.ofBits_zero_f32, zero_add, sum_idx2]
  exact Finset.sum_congr rfl fun b _ => Finset.sum_congr rfl fun c _ => maskedBox_cell x0 x1 b c

/-- The total masked cross entropy. -/
theorem bce_total (x0 x1 : Input) : val_main_v36 (F := Ideal) x0 x1 = splat (total (bceAt x0 x1)) := by
  funext i
  rw [val_main_v36_apply, val_main_cst_9_apply, Ideal.ofBits_def, Ideal.ofBits_zero_f32, zero_add, sum_idx2]
  exact Finset.sum_congr rfl fun b _ => Finset.sum_congr rfl fun c _ => maskedBce_cell x0 x1 b c

/-- The total background term. -/
theorem bg_total (x0 x1 : Input) : val_main_v42 (F := Ideal) x0 x1 = splat (total (bgAt x0 x1)) := by
  funext i
  rw [val_main_v42_apply, val_main_cst_11_apply, Ideal.ofBits_def, Ideal.ofBits_zero_f32, zero_add, sum_idx2]
  exact Finset.sum_congr rfl fun b _ => Finset.sum_congr rfl fun c _ => bg_cell x0 x1 b c

/-! ## The loss -/

/-- The reference's result is the loss: its last eleven operations are those of lossOf at the five totals. -/
theorem ref_loss (x0 x1 : (⟨Cert.ReferenceIdeal.S2048x2704x5, .f32⟩ : BufTy).Contents (Elt Ideal)) :
    Cert.ReferenceIdeal.Read.val_main_v50 (F := Ideal) x0 x1 = Cert.FaceLoss.loss x0 x1 := by
  unfold val_main_v50 val_main_v49 val_main_v48 val_main_v47 val_main_v46 val_main_v45 val_main_v44 val_main_v43
    val_main_v37 val_main_v17 val_main_v16
  rw [face_total, box_total, bce_total, bg_total, nonface_total]
  rfl

end Cert.ReferenceIdeal.RefValue

end
-- ==== Proof.lean ====
/-
  A face-detection loss, computed by a tiled kernel and by a plain array program: the two agree over the extended reals.

  Inputs: predictions `X` and labels `Y`, each 2048 × 2704 cells of five channels (a confidence or target, and four box
  coordinates).  A cell is a face cell when its target exceeds one half.  The loss is
  `(1 + 1/F) · BOX / (4 F) + (1 + 1/F) · BCE / F + BG / R` of five totals over the grid: the number `F` of face cells, the
  box error `BOX` and the cross entropy `BCE` summed over the face cells, the background term `BG` summed over the other
  cells, and the number `R` of the other cells (Proof/Cells.lean).

  The reference computes the five totals by five sums over the whole grid (Proof/RefLoss.lean).  The kernel cuts the grid
  into 2 × 169 tiles of 1024 × 16 cells, one row of 169 tiles per core; it keeps four running totals, reset at the first
  tile of a row, stepped at each tile by the tile's own sums, and written out after the last tile of the row
  (Proof/KPieces.lean, KTile.lean, KSteps.lean, KAcc.lean, KOut.lean); the host then adds the two cores' totals and takes
  `R` as the number of cells, 5537792, less `F` (Proof/KTailValue.lean, KRun.lean).  Three facts join the two sides: a
  finite sum over the extended reals may be grouped by tiles (Proof/Regroup.lean, TilesTotal.lean); `0 + x = x` and
  `0 − x = −x` hold for every extended real; and the mask takes only the real values 0 and 1, so the sum of `1 − mask`
  over the cells is the number of cells less the sum of the masks (Proof/Cells.lean, `rest_total`).  None of this needs
  the inputs to be finite, so the precondition is never opened.

  The frames of the two kernel programs are the generated frame runs; the reference's frame is its generated run with the
  result dropped; the ideal pass rewrote nothing, so `preserves` is trivial.
-/
import proofs.«164891_j38285338476689_1_alg».proof.Defs
import proofs.«164891_j38285338476689_1_alg».proof.Proof.Gen.Kernel
import proofs.«164891_j38285338476689_1_alg».proof.Proof.Gen.Kernel.Skeleton
import proofs.«164891_j38285338476689_1_alg».proof.Proof.Gen.Kernel.Launch
import proofs.«164891_j38285338476689_1_alg».proof.Proof.Gen.Kernel.Points
import proofs.«164891_j38285338476689_1_alg».proof.Proof.Gen.Kernel.Frame
import proofs.«164891_j38285338476689_1_alg».proof.Proof.Gen.KernelIdeal
import proofs.«164891_j38285338476689_1_alg».proof.Proof.Gen.KernelIdeal.Skeleton
import proofs.«164891_j38285338476689_1_alg».proof.Proof.Gen.KernelIdeal.Launch
import proofs.«164891_j38285338476689_1_alg».proof.Proof.Gen.KernelIdeal.Points
import proofs.«164891_j38285338476689_1_alg».proof.Proof.Gen.KernelIdeal.Frame
import proofs.«164891_j38285338476689_1_alg».proof.Proof.Gen.ReferenceIdeal
import proofs.«164891_j38285338476689_1_alg».proof.Proof.Gen.ReferenceIdeal.Run
import proofs.«164891_j38285338476689_1_alg».proof.Proof.Gen.ReferenceIdeal.Read
import proofs.«164891_j38285338476689_1_alg».proof.Proof.Gen.Pre_finite_inputs
import proofs.«164891_j38285338476689_1_alg».proof.Proof.KRun
import proofs.«164891_j38285338476689_1_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame run. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the loss of the argument arrays: the kernel's program by the accumulation over the tiles and
    the host's last operations, the reference by its five sums over the grid; the arguments agree. -/
theorem algebraic : Cert.algebraic_KernelIdeal_ReferenceIdeal := by
  intro m ρ m' ρ' _ hagree
  refine ⟨fun c => Cert.FaceLoss.loss (Cert.KernelIdeal.Steps.X m c) (Cert.KernelIdeal.Steps.Y m c),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, Cert.ReferenceIdeal.RefValue.ref_loss, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
